-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 49
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x128, .f32⟩
  | .hbm, ⟨29, _⟩ => ⟨S100000x128, .f32⟩
  | .hbm, ⟨30, _⟩ => ⟨S1x128, .f32⟩
  | .hbm, ⟨31, _⟩ => ⟨S1x128, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S1x128, .f32⟩
  | .hbm, ⟨48, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S1x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S1x128_S1x128 : S1x128.ShapeCasts S1x128
  broadcasts_S1x128_S2000x128 : S1x128.Broadcasts S2000x128
  reduces_S2000x128_S128 : S2000x128.Reduces [0] S128
  shapeCasts_S1x128_S128 : S1x128.ShapeCasts S128
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S2000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_6 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, over the extended reals, with no program in sight.

  A graph layer: every node's features plus the sum of its in-neighbours' features go through two affine maps,
  each followed by max(·, 0); the result `h` (100000 rows, 128 columns) is then normalised column by column with
  the batch's own mean and variance. The two programs differ only in how they take the variance of a column:
  one as the mean of the squares minus the square of the mean, the other as the mean of the squared deviations.
  Over the reals these agree; over the extended reals they agree once every entry of `h` is a real number, which
  is what `AllReal` records and `hid_real` propagates.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- Rows × columns of the node features. -/
abbrev SN : Shape := ⟨2, ![100000, 128]⟩
/-- A weight matrix. -/
abbrev SW : Shape := ⟨2, ![128, 128]⟩
/-- A bias, scale or shift vector. -/
abbrev SV : Shape := ⟨1, ![128]⟩

/-- Every entry of the array is a real number (neither infinity). -/
def AllReal {s : Shape} (v : s.Idx → EReal) : Prop := ∀ i, ∃ q : ℝ, v i = (q : EReal)

/-- A finite sum of real numbers, taken in the extended reals, is a real number. -/
theorem sum_real {ι : Type} (s : Finset ι) (f : ι → EReal) (hf : ∀ i ∈ s, ∃ q : ℝ, f i = (q : EReal)) :
    ∃ q : ℝ, ∑ i ∈ s, f i = (q : EReal) := by
  classical
  induction s using Finset.induction_on with
  | empty => exact ⟨0, by simp⟩
  | insert a s ha ih =>
    obtain ⟨qa, hqa⟩ := hf a (Finset.mem_insert_self a s)
    obtain ⟨qs, hqs⟩ := ih (fun i hi => hf i (Finset.mem_insert_of_mem hi))
    exact ⟨qa + qs, by rw [Finset.sum_insert ha, hqa, hqs, EReal.coe_add]⟩

/-- The extended-real sum of real numbers is the real sum. -/
theorem coe_sum {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The larger of a real number and zero is a real number. -/
theorem max_zero_real {a : EReal} (ha : ∃ q : ℝ, a = (q : EReal)) : ∃ q : ℝ, max a 0 = (q : EReal) := by
  obtain ⟨q, rfl⟩ := ha
  rcases le_total ((q : ℝ) : EReal) 0 with h | h
  · exact ⟨0, by rw [max_eq_right h]; rfl⟩
  · exact ⟨q, max_eq_left h⟩

/-- Products and sums of real numbers are real numbers. -/
theorem mul_real {a b : EReal} (ha : ∃ q : ℝ, a = (q : EReal)) (hb : ∃ q : ℝ, b = (q : EReal)) : ∃ q : ℝ, a * b = (q : EReal) := by
  obtain ⟨p, rfl⟩ := ha; obtain ⟨q, rfl⟩ := hb; exact ⟨p * q, (EReal.coe_mul p q).symm⟩
theorem add_real {a b : EReal} (ha : ∃ q : ℝ, a = (q : EReal)) (hb : ∃ q : ℝ, b = (q : EReal)) : ∃ q : ℝ, a + b = (q : EReal) := by
  obtain ⟨p, rfl⟩ := ha; obtain ⟨q, rfl⟩ := hb; exact ⟨p + q, (EReal.coe_add p q).symm⟩

/-- The hidden features at row `r`, column `j`: `max (max (xa·W1 + b1) 0 · W2 + b2) 0`. -/
def hid (xa : SN.Idx → EReal) (W1 : SW.Idx → EReal) (b1 : SV.Idx → EReal) (W2 : SW.Idx → EReal) (b2 : SV.Idx → EReal)
    (r : Fin 100000) (j : Fin 128) : EReal :=
  max ((∑ k : Fin 128, max ((∑ l : Fin 128, xa (ix2 r l) * W1 (ix2 l k)) + b1 (ix1 k)) 0 * W2 (ix2 k j)) + b2 (ix1 j)) 0

/-- Real inputs give real hidden features. -/
theorem hid_real {xa : SN.Idx → EReal} {W1 : SW.Idx → EReal} {b1 : SV.Idx → EReal} {W2 : SW.Idx → EReal} {b2 : SV.Idx → EReal}
    (hxa : AllReal xa) (hW1 : AllReal W1) (hb1 : AllReal b1) (hW2 : AllReal W2) (hb2 : AllReal b2)
    (r : Fin 100000) (j : Fin 128) : ∃ q : ℝ, hid xa W1 b1 W2 b2 r j = (q : EReal) := by
  unfold hid
  refine max_zero_real (add_real (sum_real _ _ fun k _ => mul_real (max_zero_real (add_real (sum_real _ _ fun l _ => mul_real (hxa _) (hW1 _)) (hb1 _))) (hW2 _)) (hb2 _))

/-- The number of rows, as both programs spell it: the float32 word of 100000.0. -/
def cnt : EReal := Ideal.ofBits .f32 0x47C35000#32
/-- That word denotes the real number 100000. -/
theorem cnt_eq : cnt = ((100000 : ℝ) : EReal) := by
  simp [cnt, Ideal.ofBits, Ideal.ieee, -EReal.coe_mul]; norm_num
/-- The stabiliser added to the variance, as both programs spell it (never evaluated). -/
def eps : EReal := Ideal.ofBits .f32 0x3727C5AC#32
/-- The float32 zero word denotes 0. -/
theorem zero_eq : Ideal.ofBits .f32 0x00000000#32 = 0 := Ideal.ofBits_zero_f32

/-- Column sum. -/
def colSum (h : Fin 100000 → Fin 128 → EReal) (j : Fin 128) : EReal := ∑ r : Fin 100000, h r j
/-- Column sum of squares. -/
def colSumSq (h : Fin 100000 → Fin 128 → EReal) (j : Fin 128) : EReal := ∑ r : Fin 100000, h r j * h r j
/-- Column mean. -/
def mean (h : Fin 100000 → Fin 128 → EReal) (j : Fin 128) : EReal := Ideal.div (colSum h j) cnt
/-- Variance as mean of squares minus square of mean. -/
def varK (h : Fin 100000 → Fin 128 → EReal) (j : Fin 128) : EReal := Ideal.div (colSumSq h j) cnt - mean h j * mean h j
/-- Variance as mean of squared deviations. -/
def varR (h : Fin 100000 → Fin 128 → EReal) (j : Fin 128) : EReal :=
  Ideal.div (∑ r : Fin 100000, (h r j - mean h j) * (h r j - mean h j)) cnt

/-- On real entries the two variances agree: Σ(h−μ)² = Σh² − 2μΣh + Nμ² with μ = Σh/N. -/
theorem varK_eq_varR (h : Fin 100000 → Fin 128 → EReal) (hh : ∀ r j, ∃ q : ℝ, h r j = (q : EReal)) (j : Fin 128) :
    varK h j = varR h j := by
  choose f hf using hh
  have key : ∀ g : Fin 100000 → ℝ,
      (∑ r, g r * g r) * (1 / 100000) - (∑ r, g r) * (1 / 100000) * ((∑ r, g r) * (1 / 100000))
        = (∑ r, (g r - (∑ r, g r) * (1 / 100000)) * (g r - (∑ r, g r) * (1 / 100000))) * (1 / 100000) := by
    intro g
    generalize hS : (∑ r, g r) = S
    have e : ∑ r, (g r - S * (1 / 100000)) * (g r - S * (1 / 100000))
        = (∑ r, g r * g r) - 2 * (S * (1 / 100000)) * S + 100000 * (S * (1 / 100000)) ^ 2 := by
      have e1 : ∀ r, (g r - S * (1 / 100000)) * (g r - S * (1 / 100000))
          = g r * g r - 2 * (S * (1 / 100000)) * g r + (S * (1 / 100000)) ^ 2 := fun r => by ring
      simp only [e1, Finset.sum_add_distrib, Finset.sum_sub_distrib, ← Finset.mul_sum, hS, Finset.sum_const, Finset.card_univ,
        Fintype.card_fin, nsmul_eq_mul]
      norm_num
    rw [e]; ring
  have hc : cnt = ((100000 : ℝ) : EReal) := cnt_eq
  unfold varK varR mean colSum colSumSq
  simp only [hf, hc, Ideal.div_coe (by norm_num : (100000 : ℝ) ≠ 0), ← EReal.coe_mul, coe_sum, ← EReal.coe_sub]
  exact congrArg _ (key fun r => f r j)

/-- One normalised entry, given the column's variance. -/
def norm (var : EReal) (h : Fin 100000 → Fin 128 → EReal) (g b : SV.Idx → EReal) (r : Fin 100000) (j : Fin 128) : EReal :=
  ((h r j - mean h j) * Ideal.rsqrt (var + eps)) * g (ix1 j) + b (ix1 j)

/-- The normalised output with the first variance, as an array. -/
def outK (h : Fin 100000 → Fin 128 → EReal) (g b : SV.Idx → EReal) : SN.Idx → EReal :=
  fun i => norm (varK h ⟨(i 1).val, idx2_lt1 i⟩) h g b ⟨(i 0).val, idx2_lt0 i⟩ ⟨(i 1).val, idx2_lt1 i⟩
/-- The normalised output with the second variance, as an array. -/
def outR (h : Fin 100000 → Fin 128 → EReal) (g b : SV.Idx → EReal) : SN.Idx → EReal :=
  fun i => norm (varR h ⟨(i 1).val, idx2_lt1 i⟩) h g b ⟨(i 0).val, idx2_lt0 i⟩ ⟨(i 1).val, idx2_lt1 i⟩

theorem outK_apply (h : Fin 100000 → Fin 128 → EReal) (g b : SV.Idx → EReal) (r : Fin 100000) (j : Fin 128) :
    outK h g b (ix2 r j) = ((h r j - mean h j) * Ideal.rsqrt (varK h j + eps)) * g (ix1 j) + b (ix1 j) := rfl
theorem outR_apply (h : Fin 100000 → Fin 128 → EReal) (g b : SV.Idx → EReal) (r : Fin 100000) (j : Fin 128) :
    outR h g b (ix2 r j) = ((h r j - mean h j) * Ideal.rsqrt (varR h j + eps)) * g (ix1 j) + b (ix1 j) := rfl

/-- So on real hidden features the two outputs are one array. -/
theorem outK_eq_outR (h : Fin 100000 → Fin 128 → EReal) (g b : SV.Idx → EReal)
    (hh : ∀ r j, ∃ q : ℝ, h r j = (q : EReal)) : outK h g b = outR h g b := by
  funext i
  obtain ⟨r, j, rfl⟩ : ∃ (r : Fin 100000) (j : Fin 128), i = ix2 r j := ⟨i 0, i 1, eq_ix2 i⟩
  rw [outK_apply, outR_apply, varK_eq_varR h hh]

/-- Fifty consecutive blocks of 2000 rows are all 100000 rows: a sum block by block is the sum over the rows. -/
theorem sum_blocks {M : Type} [AddCommMonoid M] (f : Fin 100000 → M) :
    (∑ t : Fin 50, ∑ q : Fin 2000, f ⟨2000 * t.val + q.val, by have := t.isLt; have := q.isLt; omega⟩) = ∑ r : Fin 100000, f r := by
  rw [← Fintype.sum_prod_type']
  refine Fintype.sum_equiv (finProdFinEquiv (m := 50) (n := 2000)) _ (fun r : Fin (50 * 2000) => f r) (fun x => ?_)
  refine congrArg f (Fin.ext ?_)
  show 2000 * x.1.val + x.2.val = x.2.val + 2000 * x.1.val
  omega

end Cert.Spec

end
-- ==== Proof.Finite.lean ====
/-
  From the precondition to real numbers: the precondition says, of each float argument, that every entry's
  absolute value is below +∞; an extended real whose absolute value is below +∞ is a real number.
-/
import proofs.«176753_j82042465288993_1_alg».proof.Pre_finite_inputs
import proofs.«176753_j82042465288993_1_alg».proof.Proof.Gen.Pre_finite_inputs
import proofs.«176753_j82042465288993_1_alg».proof.Proof.Spec
import Idealize.ShloMosaic.Lib.ReduceAll
import Idealize.ShloMosaic.Lib.ValueIdx

noncomputable section

namespace Cert.Proof.Finite

open Idealize.ShloMosaic Idealize.ShloMosaic.ValueIdx
open Cert.Pre_finite_inputs

/-- The rank-0 shape has exactly one index. -/
local instance : Subsingleton S_.Idx := ⟨fun a b => funext fun d => d.elim0⟩

/-- The float32 word with all exponent bits set and no fraction denotes +∞. -/
private theorem inf_eq_top : Ideal.ofBits .f32 0x7F800000#32 = (⊤ : EReal) := by
  simp [Ideal.ofBits, Ideal.ieee]

/-- An extended real whose absolute value max(x, −x) is strictly below +∞ is a real number:
    at −∞ and at +∞ the absolute value is +∞ itself. -/
private theorem real_of_abs_lt (x : EReal)
    (h : Ideal.cmp .olt (max x (-x)) (Ideal.ofBits .f32 0x7F800000#32) = 1#1) : ∃ q : ℝ, x = (q : EReal) := by
  rw [inf_eq_top] at h
  unfold Ideal.cmp at h
  induction x using EReal.rec with
  | bot => simp at h
  | coe r => exact ⟨r, rfl⟩
  | top => simp at h

/-- If the conjunction over all entries of "|v i| < +∞" is true, every entry of v is a real number. -/
private theorem real_of_all_lt {S : Shape} {axes : List (Fin S.rank)} (v : FVec Ideal S .f32)
    (hb : S_.BroadcastsInDim S (![] : Fin 0 → Fin S.rank)) (hr : S.ReducesTo axes S_) (hu : 0 < S_.numel)
    (hall : Host.reduce IntOp.andi
        (cmpf .olt (Host.absf v) (broadcastInDim S ![] hb (constant S_ .f32 0x7F800000#32)))
        (constantI S_ 1 1#1) hr hu ix0 = 1#1) :
    Cert.Spec.AllReal (s := S) v := by
  intro i
  have hi := Host.reduce_andi_all _ _ hr hu ix0 hall i
  exact real_of_abs_lt (v i) hi

/-- Where the precondition holds, the features, both weight matrices and both biases hold real numbers. -/
theorem real_of_pre (x : FVec Ideal S100000x128 .f32) (ei : IVec S2x1600000 32) (W1 : FVec Ideal S128x128 .f32)
    (b1 : FVec Ideal S128 .f32) (W2 : FVec Ideal S128x128 .f32) (b2 g bt : FVec Ideal S128 .f32)
    (h : Cert.Pre_finite_inputs.fn (F := Ideal) x ei W1 b1 W2 b2 g bt = fun _ => 1#1) :
    Cert.Spec.AllReal (s := S100000x128) x ∧ Cert.Spec.AllReal (s := S128x128) W1 ∧ Cert.Spec.AllReal (s := S128) b1
      ∧ Cert.Spec.AllReal (s := S128x128) W2 ∧ Cert.Spec.AllReal (s := S128) b2 := by
  have h0 := congrFun h ix0
  dsimp only [Cert.Pre_finite_inputs.fn, Cert.Pre_finite_inputs.fn_part1] at h0
  -- the result is a seven-fold conjunction, one conjunct per float argument, nested to the left
  obtain ⟨h6, _⟩ := IntOp.andi_eq_one.1 h0
  obtain ⟨h5, _⟩ := IntOp.andi_eq_one.1 h6
  obtain ⟨h4, hb2⟩ := IntOp.andi_eq_one.1 h5
  obtain ⟨h3, hW2⟩ := IntOp.andi_eq_one.1 h4
  obtain ⟨h2, hb1⟩ := IntOp.andi_eq_one.1 h3
  obtain ⟨hx, hW1⟩ := IntOp.andi_eq_one.1 h2
  exact ⟨real_of_all_lt x _ _ _ hx, real_of_all_lt W1 _ _ _ hW1, real_of_all_lt b1 _ _ _ hb1,
    real_of_all_lt W2 _ _ _ hW2, real_of_all_lt b2 _ _ _ hb2⟩

end Cert.Proof.Finite

end
-- ==== Proof.KDefs.lean ====
/-
  The kernel program's side: names for its argument arrays at the ideal instance, the aggregated neighbour
  features as its host operations compute them, and the hidden features they feed.
-/
import proofs.«176753_j82042465288993_1_alg».proof.Proof.Gen.KernelIdeal.Frame
import proofs.«176753_j82042465288993_1_alg».proof.Proof.Spec

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The node features on core `c`. -/
abbrev aX (c : Dev nD) : FVec Ideal S100000x128 .f32 := m ((c : Thread nD τ).loc main_arg0)
/-- The edge list (row 0 the sources, row 1 the destinations). -/
abbrev aE (c : Dev nD) : IVec S2x1600000 32 := m ((c : Thread nD τ).loc main_arg1)
/-- First weight matrix and bias, second weight matrix and bias, scale and shift. -/
abbrev aW1 (c : Dev nD) : FVec Ideal S128x128 .f32 := m ((c : Thread nD τ).loc main_arg2)
abbrev aB1 (c : Dev nD) : FVec Ideal S128 .f32 := m ((c : Thread nD τ).loc main_arg3)
abbrev aW2 (c : Dev nD) : FVec Ideal S128x128 .f32 := m ((c : Thread nD τ).loc main_arg4)
abbrev aB2 (c : Dev nD) : FVec Ideal S128 .f32 := m ((c : Thread nD τ).loc main_arg5)
abbrev aG (c : Dev nD) : FVec Ideal S128 .f32 := m ((c : Thread nD τ).loc main_arg6)
abbrev aBt (c : Dev nD) : FVec Ideal S128 .f32 := m ((c : Thread nD τ).loc main_arg7)

/-- The sum, into every node, of the features of the sources of the edges that end at it: a gather of the source rows
    (negative indices wrapped once, then clamped) scattered with addition onto zeros at the destination rows. -/
def agg (x : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select
          (cmpi .slt (shapeCast S1600000 (extractStridedSlice S1x1600000 ![0, 0] ei slices_S2x1600000_S1x1600000_0_0) shapeCasts_S1x1600000_S1600000)
            (broadcastInDim S1600000 ![] bcast_S_S1600000 (constantI S_ 32 0#32)))
          (addi (shapeCast S1600000 (extractStridedSlice S1x1600000 ![0, 0] ei slices_S2x1600000_S1x1600000_0_0) shapeCasts_S1x1600000_S1600000)
            (broadcastInDim S1600000 ![] bcast_S_S1600000 (constantI S_ 32 100000#32)))
          (shapeCast S1600000 (extractStridedSlice S1x1600000 ![0, 0] ei slices_S2x1600000_S1x1600000_0_0) shapeCasts_S1x1600000_S1600000))))

/-- The features that enter the first affine map: a node's own plus its neighbours'. -/
abbrev xa (c : Dev nD) : FVec Ideal S100000x128 .f32 := addf (aX m c) (agg (aX m c) (aE m c))

/-- The hidden features of every node. -/
abbrev hidK (c : Dev nD) : Fin 100000 → Fin 128 → EReal :=
  Cert.Spec.hid (xa m c) (aW1 m c) (aB1 m c) (aW2 m c) (aB2 m c)

/-! ## The arrays the two kernels meet and leave, each under a name of its literal type -/

/-- After the first kernel: the feature array, the column-sum row, the column-sum-of-squares row. -/
abbrev featArr (c : Dev nD) : FVec Ideal S100000x128 .f32 := (dat0 (V1 m ρ) c).arrAt 6 cfg0.N
abbrev sumRow (c : Dev nD) : FVec Ideal S1x128 .f32 := (dat0 (V1 m ρ) c).arrAt 7 cfg0.N
abbrev sqRow (c : Dev nD) : FVec Ideal S1x128 .f32 := (dat0 (V1 m ρ) c).arrAt 8 cfg0.N
/-- As the second kernel finds them: the features, the mean row, the reciprocal-deviation row, scale and shift rows. -/
abbrev hIn (c : Dev nD) : FVec Ideal S100000x128 .f32 := V3 m ρ c main_v18_0
abbrev muRow (c : Dev nD) : FVec Ideal S1x128 .f32 := V3 m ρ c main_v30
abbrev isRow (c : Dev nD) : FVec Ideal S1x128 .f32 := V3 m ρ c main_v31
abbrev gRow (c : Dev nD) : FVec Ideal S1x128 .f32 := V3 m ρ c main_v16
abbrev btRow (c : Dev nD) : FVec Ideal S1x128 .f32 := V3 m ρ c main_v17
/-- After the second kernel: the result array. -/
abbrev outArr (c : Dev nD) : FVec Ideal S100000x128 .f32 := (dat1 (V3 m ρ) c).arrAt 5 cfg1.N
/-- As the first kernel finds them: features, aggregated features, weights, bias rows. -/
abbrev xIn (c : Dev nD) : FVec Ideal S100000x128 .f32 := V1 m ρ c main_arg0
abbrev aggIn (c : Dev nD) : FVec Ideal S100000x128 .f32 := V1 m ρ c main_v13
abbrev w1In (c : Dev nD) : FVec Ideal S128x128 .f32 := V1 m ρ c main_arg2
abbrev b1Row (c : Dev nD) : FVec Ideal S1x128 .f32 := V1 m ρ c main_v14
abbrev w2In (c : Dev nD) : FVec Ideal S128x128 .f32 := V1 m ρ c main_arg4
abbrev b2Row (c : Dev nD) : FVec Ideal S1x128 .f32 := V1 m ρ c main_v15

end Cert.KernelIdeal.Val

end
-- ==== Proof.KHost.lean ====
/-
  What the host operations around the two kernels leave in the arrays the kernels read, at the ideal instance.
  Before the first kernel: the features and the weights as launched, the aggregated neighbour features, the two
  biases as rows. Between the kernels: the first kernel's feature array untouched, the column mean (column sum
  over the row count) and the reciprocal square root of (mean of squares − mean² + stabiliser) as rows, and the
  scale and shift as rows.
-/
import proofs.«176753_j82042465288993_1_alg».proof.Proof.KDefs
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-! ## A vector of 128 entries and the same entries as a 1 × 128 row

Both layouts place entry j at row-major position j, so a reshape either way keeps every entry. -/

/-- A vector reshaped to a row: entry (0, j) of the row is entry j of the vector. -/
private theorem row_of_vec {α : Type} (v : S128.Idx → α) (j : Fin 128) :
    shapeCast S1x128 v shapeCasts_S128_S1x128 (ix2 (0 : Fin 1) j) = v (ix1 j) :=
  shapeCast_apply v shapeCasts_S128_S1x128 (ix2 (0 : Fin 1) j) (ix1 j) (by
    rw [Shape.rowMajor_val_one, Shape.rowMajor_val_two]
    show j.val = 0 * 128 + j.val
    omega)

/-- A row reshaped to a vector: entry j of the vector is entry (0, j) of the row. -/
private theorem vec_of_row {α : Type} (v : S1x128.Idx → α) (j : Fin 128) :
    shapeCast S128 v shapeCasts_S1x128_S128 (ix1 j) = v (ix2 (0 : Fin 1) j) :=
  shapeCast_apply v shapeCasts_S1x128_S128 (ix1 j) (ix2 (0 : Fin 1) j) (by
    rw [Shape.rowMajor_val_one, Shape.rowMajor_val_two]
    show 0 * 128 + j.val = j.val
    omega)

/-- The row count broadcast along a vector reads the row count at every entry. -/
private theorem cntVec_apply (j : Fin 128) :
    broadcastInDim S128 ![] bcast_S_S128 (constant (F := Ideal) S_ .f32 0x47C35000#32) (ix1 j) = Cert.Spec.cnt := rfl

/-- The stabiliser broadcast along a vector reads the stabiliser at every entry. -/
private theorem epsVec_apply (j : Fin 128) :
    broadcastInDim S128 ![] bcast_S_S128 (constant (F := Ideal) S_ .f32 0x3727C5AC#32) (ix1 j) = Cert.Spec.eps := rfl

/-- The mean row from a column-sum row: reshape to a vector, divide entrywise by the row count, reshape back. -/
private theorem meanRow_apply (s : FVec Ideal S1x128 .f32) (j : Fin 128) :
    shapeCast S1x128
        (Host.divf (shapeCast S128 s shapeCasts_S1x128_S128)
          (broadcastInDim S128 ![] bcast_S_S128 (constant (F := Ideal) S_ .f32 0x47C35000#32)))
        shapeCasts_S128_S1x128 (ix2 (0 : Fin 1) j)
      = Ideal.div (s (ix2 (0 : Fin 1) j)) Cert.Spec.cnt := by
  rw [row_of_vec]
  show Ideal.div (shapeCast S128 s shapeCasts_S1x128_S128 (ix1 j))
      (broadcastInDim S128 ![] bcast_S_S128 (constant (F := Ideal) S_ .f32 0x47C35000#32) (ix1 j)) = _
  rw [vec_of_row, cntVec_apply]

/-- The reciprocal-deviation row from the two column-sum rows: entrywise, the reciprocal square root of
    (sum of squares over the count) − (sum over the count)² + stabiliser. -/
private theorem invStdRow_apply (s q : FVec Ideal S1x128 .f32) (j : Fin 128) :
    shapeCast S1x128
        (Host.rsqrt
          (addf
            (subf
              (Host.divf (shapeCast S128 q shapeCasts_S1x128_S128)
                (broadcastInDim S128 ![] bcast_S_S128 (constant (F := Ideal) S_ .f32 0x47C35000#32)))
              (mulf
                (Host.divf (shapeCast S128 s shapeCasts_S1x128_S128)
                  (broadcastInDim S128 ![] bcast_S_S128 (constant (F := Ideal) S_ .f32 0x47C35000#32)))
                (Host.divf (shapeCast S128 s shapeCasts_S1x128_S128)
                  (broadcastInDim S128 ![] bcast_S_S128 (constant (F := Ideal) S_ .f32 0x47C35000#32)))))
            (broadcastInDim S128 ![] bcast_S_S128 (constant (F := Ideal) S_ .f32 0x3727C5AC#32))))
        shapeCasts_S128_S1x128 (ix2 (0 : Fin 1) j)
      = Ideal.rsqrt
          ((Ideal.div (q (ix2 (0 : Fin 1) j)) Cert.Spec.cnt
            - Ideal.div (s (ix2 (0 : Fin 1) j)) Cert.Spec.cnt * Ideal.div (s (ix2 (0 : Fin 1) j)) Cert.Spec.cnt)
          + Cert.Spec.eps) := by
  rw [row_of_vec]
  show Ideal.rsqrt
      ((Ideal.div (shapeCast S128 q shapeCasts_S1x128_S128 (ix1 j))
            (broadcastInDim S128 ![] bcast_S_S128 (constant (F := Ideal) S_ .f32 0x47C35000#32) (ix1 j))
          - Ideal.div (shapeCast S128 s shapeCasts_S1x128_S128 (ix1 j))
              (broadcastInDim S128 ![] bcast_S_S128 (constant (F := Ideal) S_ .f32 0x47C35000#32) (ix1 j))
            * Ideal.div (shapeCast S128 s shapeCasts_S1x128_S128 (ix1 j))
              (broadcastInDim S128 ![] bcast_S_S128 (constant (F := Ideal) S_ .f32 0x47C35000#32) (ix1 j)))
        + broadcastInDim S128 ![] bcast_S_S128 (constant (F := Ideal) S_ .f32 0x3727C5AC#32) (ix1 j)) = _
  rw [vec_of_row, vec_of_row, cntVec_apply, epsVec_apply]

/-! ## The first kernel's arrays as it finds them

Each is what the first stretch of host operations leaves at one buffer: an argument no operation writes is still
the launched array; a written buffer holds its operation's value on the operands' contents. -/

theorem xIn_eq (c : Dev nD) : xIn m ρ c = aX m c := by
  show StableHlo.after hostOps0 (W0 m ρ c) (Proc.devRef .tc main_arg0) = _
  after_results
theorem aggIn_eq (c : Dev nD) : aggIn m ρ c = agg (aX m c) (aE m c) := by
  show StableHlo.after hostOps0 (W0 m ρ c) (Proc.devRef .tc main_v13) = _
  after_results
  rfl
theorem w1In_eq (c : Dev nD) : w1In m ρ c = aW1 m c := by
  show StableHlo.after hostOps0 (W0 m ρ c) (Proc.devRef .tc main_arg2) = _
  after_results
theorem w2In_eq (c : Dev nD) : w2In m ρ c = aW2 m c := by
  show StableHlo.after hostOps0 (W0 m ρ c) (Proc.devRef .tc main_arg4) = _
  after_results
/-- The first bias as a row: entry (0, j) is entry j. -/
theorem b1Row_apply (c : Dev nD) (j : Fin 128) : b1Row m ρ c (ix2 (0 : Fin 1) j) = aB1 m c (ix1 j) := by
  have e : b1Row m ρ c = shapeCast S1x128 (aB1 m c) shapeCasts_S128_S1x128 := by
    show StableHlo.after hostOps0 (W0 m ρ c) (Proc.devRef .tc main_v14) = _
    after_results
    rfl
  rw [e, row_of_vec]
/-- The second bias as a row. -/
theorem b2Row_apply (c : Dev nD) (j : Fin 128) : b2Row m ρ c (ix2 (0 : Fin 1) j) = aB2 m c (ix1 j) := by
  have e : b2Row m ρ c = shapeCast S1x128 (aB2 m c) shapeCasts_S128_S1x128 := by
    show StableHlo.after hostOps0 (W0 m ρ c) (Proc.devRef .tc main_v15) = _
    after_results
    rfl
  rw [e, row_of_vec]

/-! ## The second kernel's arrays as it finds them

The second stretch starts from the first kernel's exit: the kernel's three output arrays hold what its
write-backs left, every other buffer what it held when the kernel was entered. -/

/-- The feature array the first kernel wrote is what the second reads. -/
theorem hIn_eq (c : Dev nD) : hIn m ρ c = featArr m ρ c := by
  have e : hIn m ρ c = W2 m ρ c (Proc.devRef .tc main_v18_0) := by
    show StableHlo.after hostOps1 (W2 m ρ c) (Proc.devRef .tc main_v18_0) = _
    after_results
  rw [e]
  exact W2_arr m ρ c 6
/-- The column mean: the column sum the first kernel left, over the row count. -/
theorem muRow_apply (c : Dev nD) (j : Fin 128) :
    muRow m ρ c (ix2 (0 : Fin 1) j) = Ideal.div (sumRow m ρ c (ix2 (0 : Fin 1) j)) Cert.Spec.cnt := by
  have h7 : (W2 m ρ c (Proc.devRef .tc main_v18_1) : FVec Ideal S1x128 .f32) = sumRow m ρ c := W2_arr m ρ c 7
  have e : muRow m ρ c
      = shapeCast S1x128
          (Host.divf (shapeCast S128 (sumRow m ρ c) shapeCasts_S1x128_S128)
            (broadcastInDim S128 ![] bcast_S_S128 (constant (F := Ideal) S_ .f32 0x47C35000#32)))
          shapeCasts_S128_S1x128 := by
    show StableHlo.after hostOps1 (W2 m ρ c) (Proc.devRef .tc main_v30) = _
    after_results
    rw [h7]
    rfl
  rw [e, meanRow_apply]
/-- The reciprocal standard deviation from the two column sums the first kernel left. -/
theorem isRow_apply (c : Dev nD) (j : Fin 128) :
    isRow m ρ c (ix2 (0 : Fin 1) j)
      = Ideal.rsqrt
          ((Ideal.div (sqRow m ρ c (ix2 (0 : Fin 1) j)) Cert.Spec.cnt
            - Ideal.div (sumRow m ρ c (ix2 (0 : Fin 1) j)) Cert.Spec.cnt * Ideal.div (sumRow m ρ c (ix2 (0 : Fin 1) j)) Cert.Spec.cnt)
          + Cert.Spec.eps) := by
  have h7 : (W2 m ρ c (Proc.devRef .tc main_v18_1) : FVec Ideal S1x128 .f32) = sumRow m ρ c := W2_arr m ρ c 7
  have h8 : (W2 m ρ c (Proc.devRef .tc main_v18_2) : FVec Ideal S1x128 .f32) = sqRow m ρ c := W2_arr m ρ c 8
  have e : isRow m ρ c
      = shapeCast S1x128
          (Host.rsqrt
            (addf
              (subf
                (Host.divf (shapeCast S128 (sqRow m ρ c) shapeCasts_S1x128_S128)
                  (broadcastInDim S128 ![] bcast_S_S128 (constant (F := Ideal) S_ .f32 0x47C35000#32)))
                (mulf
                  (Host.divf (shapeCast S128 (sumRow m ρ c) shapeCasts_S1x128_S128)
                    (broadcastInDim S128 ![] bcast_S_S128 (constant (F := Ideal) S_ .f32 0x47C35000#32)))
                  (Host.divf (shapeCast S128 (sumRow m ρ c) shapeCasts_S1x128_S128)
                    (broadcastInDim S128 ![] bcast_S_S128 (constant (F := Ideal) S_ .f32 0x47C35000#32)))))
              (broadcastInDim S128 ![] bcast_S_S128 (constant (F := Ideal) S_ .f32 0x3727C5AC#32))))
          shapeCasts_S128_S1x128 := by
    show StableHlo.after hostOps1 (W2 m ρ c) (Proc.devRef .tc main_v31) = _
    after_results
    rw [h7, h8]
    rfl
  rw [e, invStdRow_apply]
/-- The scale as a row. -/
theorem gRow_apply (c : Dev nD) (j : Fin 128) : gRow m ρ c (ix2 (0 : Fin 1) j) = aG m c (ix1 j) := by
  have e : gRow m ρ c = shapeCast S1x128 (aG m c) shapeCasts_S128_S1x128 := by
    show StableHlo.after hostOps1 (W2 m ρ c) (Proc.devRef .tc main_v16) = _
    after_results
    rw [W2_of_ne m ρ c main_v16 (by decide)]
    show StableHlo.after hostOps0 (W0 m ρ c) (Proc.devRef .tc main_v16) = _
    after_results
    rfl
  rw [e, row_of_vec]
/-- The shift as a row. -/
theorem btRow_apply (c : Dev nD) (j : Fin 128) : btRow m ρ c (ix2 (0 : Fin 1) j) = aBt m c (ix1 j) := by
  have e : btRow m ρ c = shapeCast S1x128 (aBt m c) shapeCasts_S128_S1x128 := by
    show StableHlo.after hostOps1 (W2 m ρ c) (Proc.devRef .tc main_v17) = _
    after_results
    rw [W2_of_ne m ρ c main_v17 (by decide)]
    show StableHlo.after hostOps0 (W0 m ρ c) (Proc.devRef .tc main_v17) = _
    after_results
    rfl
  rw [e, row_of_vec]

end Cert.KernelIdeal.Val

end
-- ==== Proof.KBody.lean ====
/-
  What each run of the first kernel's body leaves in its three output buffers, as values: the block of hidden
  features, and the two running column sums. At the first grid point the running sums are reset to zero before the
  block's column sums are added; at every later point they are added onto what the point before left.
  Stated for any float instance.
-/
import proofs.«176753_j82042465288993_1_alg».proof.Proof.Gen.KernelIdeal.Frame
import Idealize.ShloMosaic.Lib.ValueIdx
import Idealize.ShloMosaic.Lib.Pipeline.Value
import Idealize.ShloMosaic.Lib.Tactic

noncomputable section

namespace Cert.KernelIdeal.Val

open Idealize.ShloMosaic Idealize.ShloMosaic.TcCoe Idealize.SL.Sem Idealize.ShloMosaic.ValueIdx
open Cert.KernelIdeal Cert.KernelIdeal.Gen

variable {F : FTy → Type} [FloatOps F]

/-- The zero offsets of a two-axis rectangle, however they are spelt. -/
private theorem hz : (![0, 0] : Fin 2 → Nat) = fun _ => 0 := funext fun a => by fin_cases a <;> rfl

/-- First point: the feature block is the body's arithmetic on the six input blocks. -/
theorem out0_A_6_eq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : cond0_0 i)
    (x0 : Vec F S2000x128 .f32) (x1 : Vec F S2000x128 .f32) (x2 : Vec F S128x128 .f32) (x3 : Vec F S1x128 .f32) (x4 : Vec F S128x128 .f32) (x5 : Vec F S1x128 .f32) :
    out0_A_6 c i a1 h1 a2 h2 a3 h3 a4 h4 a5 h5 a6 h6 a7 h7 a8 h8 a9 h9 hc x0 x1 x2 x3 x4 x5 = k0_pay4 x0 x1 x2 x4 x3 x5 := by
  -- one store over the whole block: the buffer reads back as that store's value, whose operands are whole-buffer loads of the six input blocks
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- First point: the running column sum is the block's column sums added onto the zero row just stored. -/
theorem out0_A_7_eq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : cond0_0 i)
    (x0 : Vec F S2000x128 .f32) (x1 : Vec F S2000x128 .f32) (x2 : Vec F S128x128 .f32) (x3 : Vec F S1x128 .f32) (x4 : Vec F S128x128 .f32) (x5 : Vec F S1x128 .f32) :
    out0_A_7 c i a1 h1 a2 h2 a3 h3 a4 h4 a5 h5 a6 h6 a7 h7 a8 h8 a9 h9 hc x0 x1 x2 x3 x4 x5 = k0_pay5 x0 x1 x2 x4 x3 x5 (k0_pay2 (F := F)) := by
  -- two stores over the whole row, the later one wins; its last operand is the row read back after the zero row was stored, that is the zero row
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz, View.readCov_unit_zero (S := S1x128) _ hz]

/-- First point: the running column sum of squares likewise. -/
theorem out0_A_8_eq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : cond0_0 i)
    (x0 : Vec F S2000x128 .f32) (x1 : Vec F S2000x128 .f32) (x2 : Vec F S128x128 .f32) (x3 : Vec F S1x128 .f32) (x4 : Vec F S128x128 .f32) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x4 x3 x5) (k0_pay3 (F := F)) := by
  -- as for the column sum: the later of two whole-row stores, over the zero row read back
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz, View.readCov_unit_zero (S := S1x128) _ hz]

/-- Later points: the feature block. -/
theorem out0_B_6_eq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : ¬cond0_0 i)
    (x0 : Vec F S2000x128 .f32) (x1 : Vec F S2000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x4 x3 x5 := by
  -- one store over the whole block, operands the six input blocks
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S2000x128) hz, View.ld_unit_zero (S := S128x128) hz, View.ld_unit_zero (S := S1x128) hz]

/-- Later points: the running column sum is the block's column sums added onto what the point before left. -/
theorem out0_B_7_eq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : ¬cond0_0 i)
    (x0 : Vec F S2000x128 .f32) (x1 : Vec F S2000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x4 x3 x5 xo7 := by
  -- one store over the whole row; its last operand is the row as the point before left it
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S2000x128) hz, View.ld_unit_zero (S := S128x128) hz, View.ld_unit_zero (S := S1x128) hz]

/-- Later points: the running column sum of squares likewise. -/
theorem out0_B_8_eq (c : Dev nD) (i : grid0.Coords) (a1 : Memref sig .tc .vmem S2000x128 .f32) (h1 : a1.IsWhole) (a2 : Memref sig .tc .vmem S2000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S1x128 .f32) (h6 : a6.IsWhole) (a7 : Memref sig .tc .vmem S2000x128 .f32) (h7 : a7.IsWhole) (a8 : Memref sig .tc .vmem S1x128 .f32) (h8 : a8.IsWhole) (a9 : Memref sig .tc .vmem S1x128 .f32) (h9 : a9.IsWhole) (hc : ¬cond0_0 i)
    (x0 : Vec F S2000x128 .f32) (x1 : Vec F S2000x128 .f32) (x2 : Vec F S128x128 .f32) (x3 : Vec F S1x128 .f32) (x4 : Vec F S128x128 .f32) (x5 : Vec F S1x128 .f32) (xo7 : Vec F S1x128 .f32) (xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x4 x3 x5) xo8 := by
  -- likewise for the sum of squares
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h9.read_unread, View.ld_unit_zero (S := S2000x128) hz, View.ld_unit_zero (S := S128x128) hz, View.ld_unit_zero (S := S1x128) hz]

/-- The second kernel's output block is its body's arithmetic on the five input blocks. -/
theorem out1_5_eq (y0 : Vec F S2000x128 .f32) (y1 y2 y3 y4 : Vec F S1x128 .f32) :
    out1_5 y0 y1 y2 y3 y4 = k1_pay1 y0 y1 y2 y3 y4 := by
  -- one store over the whole block, each operand a whole-buffer load
  unfold out1_5
  rw [View.canon_unit_zero hz]
  simp only [View.ld_unit_zero (S := S2000x128) hz, View.ld_unit_zero (S := S1x128) hz]

end Cert.KernelIdeal.Val

end
-- ==== Proof.KPay.lean ====
/-
  The two kernels' arithmetic read at one entry, over the extended reals: a block of hidden features is two
  affine maps with max(·, 0) after each (a matrix product into a zero accumulator is the plain sum over the
  contracted index, a change of float format the identity); a running column sum grows by the block's column sum;
  the normalisation is pointwise with its four row vectors read at the entry's column.
-/
import proofs.«176753_j82042465288993_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Val

open Idealize.ShloMosaic Idealize.ShloMosaic.TcCoe Idealize.SL.Sem Idealize.ShloMosaic.ValueIdx
open Cert.KernelIdeal Cert.KernelIdeal.Gen

/-! ## A column sum of a block -/

/-- The index a sum over the rows inserts row `q` into, at column `j`, is `(q, j)`. -/
private theorem lift_row (h : S2000x128.Reduces [0] S128) (j : Fin 128) (q : Fin 2000) :
    h.lift (ix1 j) q = ix2 q j := by
  funext a
  match a with
  | ⟨0, _⟩ => rfl
  | ⟨1, _⟩ => rfl

/-- A sum over the rows of a block, read at column `j`. -/
private theorem colsum_apply (src : FVec Ideal S2000x128 .f32) (h : S2000x128.Reduces [0] S128) (hφ : FKind.Formats .f32)
    (hacc : (0x00000000#32 : BitVec 32) = FKind.add.neutral .f32 hφ) (j : Fin 128) :
    multiReduction (F := Ideal) .add [0] S128 src 0x00000000#32 h hφ hacc (ix1 j) = ∑ q : Fin 2000, src (ix2 q j) := by
  refine (Ideal.multiReduction_add_single src 0x00000000#32 h hφ hacc (ix1 j)).trans ?_
  show ∑ q : Fin 2000, src (h.lift (ix1 j) q) = _
  exact Finset.sum_congr rfl fun q _ => congrArg src (lift_row h j q)

/-- The same sum stored as a one-row block. -/
private theorem colsum_row_apply (src : FVec Ideal S2000x128 .f32) (h : S2000x128.Reduces [0] S128) (hφ : FKind.Formats .f32)
    (hacc : (0x00000000#32 : BitVec 32) = FKind.add.neutral .f32 hφ) (hc : S128.ShapeCasts S1x128) (j : Fin 128) :
    shapeCast S1x128 (multiReduction (F := Ideal) .add [0] S128 src 0x00000000#32 h hφ hacc) hc (ix2 (0 : Fin 1) j)
      = ∑ q : Fin 2000, src (ix2 q j) :=
  (shapeCast_a_1a_apply _ hc (0 : Fin 1) j).trans (colsum_apply src h hφ hacc j)

/-! ## A block times a square matrix -/

/-- The block operand's row coordinate is the entry's row. -/
private theorem lhs_coord_0 (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- The block operand's column coordinate is the contracted one. -/
private theorem lhs_coord_1 (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
/-- The matrix operand's row coordinate is the contracted one. -/
private theorem rhs_coord_0 (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
/-- The matrix operand's column coordinate is the entry's column. -/
private theorem rhs_coord_1 (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block times a square matrix into a zero accumulator, at row `q`, column `j`: the row of the block against the
    column of the matrix. -/
private theorem prod_apply (a : FVec Ideal S2000x128 .bf16) (w : FVec Ideal S128x128 .bf16) (q : Fin 2000) (j : Fin 128) :
    matmul dot_S2000x128_S128x128_S2000x128_1_0_0_1_n_n none a w (constant (F := Ideal) S2000x128 .f32 0x00000000#32) (ix2 q j)
      = ∑ k : Fin 128, a (ix2 q k) * w (ix2 k j) := by
  refine (Ideal.matmul_constant_zero_apply dot_S2000x128_S128x128_S2000x128_1_0_0_1_n_n none a w (ix2 q j)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 q j)
      ((contrEquiv1 dot_S2000x128_S128x128_S2000x128_1_0_0_1_n_n 128 rfl rfl).symm k) = ix2 q k := funext fun a => Fin.ext (by
    match a with
    | ⟨0, _⟩ => exact lhs_coord_0 _ _
    | ⟨1, _⟩ => exact (lhs_coord_1 _ _).trans hk)
  have er : dot_S2000x128_S128x128_S2000x128_1_0_0_1_n_n.rhsIdx (ix2 q j)
      ((contrEquiv1 dot_S2000x128_S128x128_S2000x128_1_0_0_1_n_n 128 rfl rfl).symm k) = ix2 k j := funext fun a => Fin.ext (by
    match a with
    | ⟨0, _⟩ => exact (rhs_coord_0 _ _).trans hk
    | ⟨1, _⟩ => exact rhs_coord_1 _ _)
  rw [el, er]

/-! ## One layer: an affine map, then the maximum with zero -/

/-- A one-row block spread over the rows, read at row `q`, column `j`: the row's entry at `j`. -/
private theorem row_apply (r : FVec Ideal S1x128 .f32) (hc : S1x128.ShapeCasts S1x128) (hb : S1x128.Broadcasts S2000x128)
    (q : Fin 2000) (j : Fin 128) :
    broadcastTo S2000x128 (shapeCast S1x128 r hc) hb (ix2 q j) = r (ix2 (0 : Fin 1) j) :=
  (broadcastTo_1b_ab_apply _ hb q j).trans (congrFun (shapeCast_self r hc) _)

/-- One layer at row `q`, column `j`; the change of float format on both operands is the identity. -/
private theorem layer_apply (a : FVec Ideal S2000x128 .f32) (w : FVec Ideal S128x128 .f32) (b : FVec Ideal S1x128 .f32)
    (hlt : FTy.bits .bf16 < FTy.bits .f32) (hc : S1x128.ShapeCasts S1x128) (hb : S1x128.Broadcasts S2000x128)
    (q : Fin 2000) (j : Fin 128) :
    maximumf
        (addf
          (matmul dot_S2000x128_S128x128_S2000x128_1_0_0_1_n_n none (truncf .bf16 a hlt) (truncf .bf16 w hlt)
            (constant (F := Ideal) S2000x128 .f32 0x00000000#32))
          (broadcastTo S2000x128 (shapeCast S1x128 b hc) hb))
        (broadcast S2000x128 (Scalar.ofBits (F := Ideal) .f32 0x00000000#32)) (ix2 q j)
      = max ((∑ k : Fin 128, a (ix2 q k) * w (ix2 k j)) + b (ix2 (0 : Fin 1) j)) 0 := by
  refine (maximumf_apply _ _ _).trans ?_
  refine congrArg₂ max ?_ Ideal.ofBits_zero_f32
  refine (addf_apply _ _ _).trans ?_
  refine congrArg₂ (· + ·) ?_ (row_apply b hc hb q j)
  exact prod_apply _ _ q j

/-- A feature block at row `q`, column `j`. -/
theorem pay4_apply (x0 x1 : FVec Ideal S2000x128 .f32) (w1 w2 : FVec Ideal S128x128 .f32) (b1 b2 : FVec Ideal S1x128 .f32)
    (q : Fin 2000) (j : Fin 128) :
    k0_pay4 (F := Ideal) x0 x1 w1 w2 b1 b2 (ix2 q j)
      = max ((∑ k : Fin 128, max ((∑ l : Fin 128, (x0 (ix2 q l) + x1 (ix2 q l)) * w1 (ix2 l k)) + b1 (ix2 (0 : Fin 1) k)) 0 * w2 (ix2 k j))
          + b2 (ix2 (0 : Fin 1) j)) 0 := by
  unfold k0_pay4
  refine (layer_apply _ w2 b2 _ _ _ q j).trans ?_
  refine congrArg (fun s => max (s + b2 (ix2 (0 : Fin 1) j)) 0) (Finset.sum_congr rfl fun k _ => ?_)
  refine congrArg (· * w2 (ix2 k j)) ?_
  refine (layer_apply _ w1 b1 _ _ _ q k).trans ?_
  refine congrArg (fun s => max (s + b1 (ix2 (0 : Fin 1) k)) 0) (Finset.sum_congr rfl fun l _ => ?_)
  refine congrArg (· * w1 (ix2 l k)) ?_
  refine (addf_apply _ _ _).trans ?_
  exact congrArg (x0 (ix2 q l) + ·) (congrFun (shapeCast_self x1 _) _)

/-- The running column sum after a block: what it held plus the block's column sum. -/
theorem pay5_apply (x0 x1 : FVec Ideal S2000x128 .f32) (w1 w2 : FVec Ideal S128x128 .f32) (b1 b2 acc : FVec Ideal S1x128 .f32)
    (j : Fin 128) :
    k0_pay5 (F := Ideal) x0 x1 w1 w2 b1 b2 acc (ix2 (0 : Fin 1) j)
      = acc (ix2 (0 : Fin 1) j) + ∑ q : Fin 2000, k0_pay4 (F := Ideal) x0 x1 w1 w2 b1 b2 (ix2 q j) := by
  unfold k0_pay5
  refine (addf_apply _ _ _).trans ?_
  refine congrArg₂ (· + ·) ?_ ?_
  · exact congrFun (shapeCast_self acc _) _
  · exact colsum_row_apply _ _ _ _ _ j

/-- The running column sum of squares after a block. -/
theorem pay1_apply (v : FVec Ideal S2000x128 .f32) (acc : FVec Ideal S1x128 .f32) (j : Fin 128) :
    k0_pay1 (F := Ideal) v acc (ix2 (0 : Fin 1) j) = acc (ix2 (0 : Fin 1) j) + ∑ q : Fin 2000, v (ix2 q j) * v (ix2 q j) := by
  unfold k0_pay1
  refine (addf_apply _ _ _).trans ?_
  refine congrArg₂ (· + ·) ?_ ?_
  · exact congrFun (shapeCast_self acc _) _
  · exact colsum_row_apply (mulf v v) _ _ _ _ j

/-- The two reset rows are zero. -/
theorem pay2_apply (j : Fin 128) : k0_pay2 (F := Ideal) (ix2 (0 : Fin 1) j) = 0 := by
  unfold k0_pay2
  exact Ideal.ofBits_zero_f32
theorem pay3_apply (j : Fin 128) : k0_pay3 (F := Ideal) (ix2 (0 : Fin 1) j) = 0 := by
  unfold k0_pay3
  exact Ideal.ofBits_zero_f32

/-- The normalisation at row `q`, column `j`. -/
theorem k1_pay1_apply (h : FVec Ideal S2000x128 .f32) (mu is g b : FVec Ideal S1x128 .f32) (q : Fin 2000) (j : Fin 128) :
    k1_pay1 (F := Ideal) h mu is g b (ix2 q j)
      = ((h (ix2 q j) - mu (ix2 (0 : Fin 1) j)) * is (ix2 (0 : Fin 1) j)) * g (ix2 (0 : Fin 1) j) + b (ix2 (0 : Fin 1) j) := by
  unfold k1_pay1
  refine (addf_apply _ _ _).trans ?_
  refine congrArg₂ (· + ·) ?_ (row_apply b _ _ q j)
  refine (mulf_apply _ _ _).trans ?_
  refine congrArg₂ (· * ·) ?_ (row_apply g _ _ q j)
  refine (mulf_apply _ _ _).trans ?_
  refine congrArg₂ (· * ·) ?_ (row_apply is _ _ q j)
  refine (subf_apply _ _ _).trans ?_
  exact congrArg₂ (· - ·) (congrFun (shapeCast_self h _) _) (row_apply mu _ _ q j)

end Cert.KernelIdeal.Val

end
-- ==== Proof.KBlocks.lean ====
/-
  The first kernel's input blocks at a grid point, each under a name of its literal type, and the block of hidden
  features it computes there: point t reads rows 2000·t … 2000·t+1999 of the features and of the aggregated
  features and the whole weight matrices and bias rows, so entry (q, j) of its block of hidden features is the
  hidden feature of row 2000·t+q, column j.
-/
import proofs.«176753_j82042465288993_1_alg».proof.Proof.KDefs
import proofs.«176753_j82042465288993_1_alg».proof.Proof.KPay
import proofs.«176753_j82042465288993_1_alg».proof.Proof.KHost
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The six input blocks of point `t`. -/
abbrev xBlk (c : Dev nD) (t : Fin cfg0.N) : FVec Ideal S2000x128 .f32 := iblk0 (V1 m ρ) c 0 t
abbrev aBlk (c : Dev nD) (t : Fin cfg0.N) : FVec Ideal S2000x128 .f32 := iblk0 (V1 m ρ) c 1 t
abbrev w1Blk (c : Dev nD) (t : Fin cfg0.N) : FVec Ideal S128x128 .f32 := iblk0 (V1 m ρ) c 2 t
abbrev b1Blk (c : Dev nD) (t : Fin cfg0.N) : FVec Ideal S1x128 .f32 := iblk0 (V1 m ρ) c 3 t
abbrev w2Blk (c : Dev nD) (t : Fin cfg0.N) : FVec Ideal S128x128 .f32 := iblk0 (V1 m ρ) c 4 t
abbrev b2Blk (c : Dev nD) (t : Fin cfg0.N) : FVec Ideal S1x128 .f32 := iblk0 (V1 m ρ) c 5 t

/-- The block of hidden features point `t` computes. -/
abbrev hBlk (c : Dev nD) (t : Fin cfg0.N) : FVec Ideal S2000x128 .f32 :=
  k0_pay4 (F := Ideal) (xBlk m ρ c t) (aBlk m ρ c t) (w1Blk m ρ c t) (w2Blk m ρ c t) (b1Blk m ρ c t) (b2Blk m ρ c t)

/-- Row `q` of block `t` is row 2000·t+q of the array. -/
abbrev rowOf (t : Fin cfg0.N) (q : Fin 2000) : Fin 100000 :=
  ⟨2000 * t.val + q.val, by have := t.isLt; have := q.isLt; have h50 : cfg0.N = 50 := N_0; omega⟩

/-! ## A window's block read off any array of the window's type

A block's coordinate along an axis is the window's block index there times the block's extent plus the coordinate
inside the block. The two row-blocked windows have block index (t, 0) at point `t`; the four windows over the weights
and bias rows have block index (0, 0) at every point. The array is a variable here: nothing about its contents is used. -/

/-- Window 0 at point `t` shows rows 2000·t … 2000·t+1999 of its array, all columns. -/
private theorem read_x (A : FVec Ideal S100000x128 .f32) (t : Fin cfg0.N) (q : Fin 2000) (l : Fin 128) :
    (((cfg0.win 0).blk t).view.read (Elt Ideal) A : FVec Ideal S2000x128 .f32) (ix2 q l) = A (ix2 (rowOf t q) l) := by
  have hi := (by decide +kernel : ∀ t : Fin grid0.N, win0_0.index t 0 = t.val ∧ win0_0.index t 1 = 0) t
  rw [View.read_apply]
  show A (((cfg0.win 0).blk t).view.emb (ix2 q l)) = A (ix2 (rowOf t q) l)
  refine congrArg A ?_
  funext a
  apply Fin.ext
  match a with
  | ⟨0, _⟩ => show win0_0.index t 0 * 2000 + 1 * q.val = 2000 * t.val + q.val; rw [hi.1]; omega
  | ⟨1, _⟩ => show win0_0.index t 1 * 128 + 1 * l.val = l.val; rw [hi.2]; omega

/-- Window 1 at point `t` shows the same rows of its array. -/
private theorem read_a (A : FVec Ideal S100000x128 .f32) (t : Fin cfg0.N) (q : Fin 2000) (l : Fin 128) :
    (((cfg0.win 1).blk t).view.read (Elt Ideal) A : FVec Ideal S2000x128 .f32) (ix2 q l) = A (ix2 (rowOf t q) l) := by
  have hi := (by decide +kernel : ∀ t : Fin grid0.N, win0_1.index t 0 = t.val ∧ win0_1.index t 1 = 0) t
  rw [View.read_apply]
  show A (((cfg0.win 1).blk t).view.emb (ix2 q l)) = A (ix2 (rowOf t q) l)
  refine congrArg A ?_
  funext a
  apply Fin.ext
  match a with
  | ⟨0, _⟩ => show win0_1.index t 0 * 2000 + 1 * q.val = 2000 * t.val + q.val; rw [hi.1]; omega
  | ⟨1, _⟩ => show win0_1.index t 1 * 128 + 1 * l.val = l.val; rw [hi.2]; omega

/-- Window 2 shows its whole array at every point. -/
private theorem read_w1 (A : FVec Ideal S128x128 .f32) (t : Fin cfg0.N) (l k : Fin 128) :
    (((cfg0.win 2).blk t).view.read (Elt Ideal) A : FVec Ideal S128x128 .f32) (ix2 l k) = A (ix2 l k) := by
  have hi := (by decide +kernel : ∀ t : Fin grid0.N, win0_2.index t 0 = 0 ∧ win0_2.index t 1 = 0) t
  rw [View.read_apply]
  show A (((cfg0.win 2).blk t).view.emb (ix2 l k)) = A (ix2 l k)
  refine congrArg A ?_
  funext a
  apply Fin.ext
  match a with
  | ⟨0, _⟩ => show win0_2.index t 0 * 128 + 1 * l.val = l.val; rw [hi.1]; omega
  | ⟨1, _⟩ => show win0_2.index t 1 * 128 + 1 * k.val = k.val; rw [hi.2]; omega

/-- Window 3 shows its whole row at every point. -/
private theorem read_b1 (A : FVec Ideal S1x128 .f32) (t : Fin cfg0.N) (k : Fin 128) :
    (((cfg0.win 3).blk t).view.read (Elt Ideal) A : FVec Ideal S1x128 .f32) (ix2 (0 : Fin 1) k) = A (ix2 (0 : Fin 1) k) := by
  have hi := (by decide +kernel : ∀ t : Fin grid0.N, win0_3.index t 0 = 0 ∧ win0_3.index t 1 = 0) t
  rw [View.read_apply]
  show A (((cfg0.win 3).blk t).view.emb (ix2 (0 : Fin 1) k)) = A (ix2 (0 : Fin 1) k)
  refine congrArg A ?_
  funext a
  apply Fin.ext
  match a with
  | ⟨0, _⟩ => show win0_3.index t 0 * 1 + 1 * (0 : Fin 1).val = (0 : Fin 1).val; rw [hi.1]; omega
  | ⟨1, _⟩ => show win0_3.index t 1 * 128 + 1 * k.val = k.val; rw [hi.2]; omega

/-- Window 4 shows its whole array at every point. -/
private theorem read_w2 (A : FVec Ideal S128x128 .f32) (t : Fin cfg0.N) (k j : Fin 128) :
    (((cfg0.win 4).blk t).view.read (Elt Ideal) A : FVec Ideal S128x128 .f32) (ix2 k j) = A (ix2 k j) := by
  have hi := (by decide +kernel : ∀ t : Fin grid0.N, win0_4.index t 0 = 0 ∧ win0_4.index t 1 = 0) t
  rw [View.read_apply]
  show A (((cfg0.win 4).blk t).view.emb (ix2 k j)) = A (ix2 k j)
  refine congrArg A ?_
  funext a
  apply Fin.ext
  match a with
  | ⟨0, _⟩ => show win0_4.index t 0 * 128 + 1 * k.val = k.val; rw [hi.1]; omega
  | ⟨1, _⟩ => show win0_4.index t 1 * 128 + 1 * j.val = j.val; rw [hi.2]; omega

/-- Window 5 shows its whole row at every point. -/
private theorem read_b2 (A : FVec Ideal S1x128 .f32) (t : Fin cfg0.N) (j : Fin 128) :
    (((cfg0.win 5).blk t).view.read (Elt Ideal) A : FVec Ideal S1x128 .f32) (ix2 (0 : Fin 1) j) = A (ix2 (0 : Fin 1) j) := by
  have hi := (by decide +kernel : ∀ t : Fin grid0.N, win0_5.index t 0 = 0 ∧ win0_5.index t 1 = 0) t
  rw [View.read_apply]
  show A (((cfg0.win 5).blk t).view.emb (ix2 (0 : Fin 1) j)) = A (ix2 (0 : Fin 1) j)
  refine congrArg A ?_
  funext a
  apply Fin.ext
  match a with
  | ⟨0, _⟩ => show win0_5.index t 0 * 1 + 1 * (0 : Fin 1).val = (0 : Fin 1).val; rw [hi.1]; omega
  | ⟨1, _⟩ => show win0_5.index t 1 * 128 + 1 * j.val = j.val; rw [hi.2]; omega

/-! ## Each input block in terms of the program's arguments -/

/-- Entry (q, l) of the feature block of point `t` is the feature at row 2000·t+q, column l. -/
private theorem xBlk_apply (c : Dev nD) (t : Fin cfg0.N) (q : Fin 2000) (l : Fin 128) :
    xBlk m ρ c t (ix2 q l) = aX m c (ix2 (rowOf t q) l) := by
  have hb : xBlk m ρ c t = ((cfg0.win 0).blk t).view.read (Elt Ideal) (xIn m ρ c) := by
    unfold xBlk iblk0
    rfl
  rw [hb, read_x (xIn m ρ c) t q l, xIn_eq]

/-- Entry (q, l) of the aggregated-feature block is the aggregated feature at row 2000·t+q, column l. -/
private theorem aBlk_apply (c : Dev nD) (t : Fin cfg0.N) (q : Fin 2000) (l : Fin 128) :
    aBlk m ρ c t (ix2 q l) = agg (aX m c) (aE m c) (ix2 (rowOf t q) l) := by
  have hb : aBlk m ρ c t = ((cfg0.win 1).blk t).view.read (Elt Ideal) (aggIn m ρ c) := by
    unfold aBlk iblk0
    rfl
  rw [hb, read_a (aggIn m ρ c) t q l, aggIn_eq]

/-- The first weight block is the first weight matrix. -/
private theorem w1Blk_apply (c : Dev nD) (t : Fin cfg0.N) (l k : Fin 128) :
    w1Blk m ρ c t (ix2 l k) = aW1 m c (ix2 l k) := by
  have hb : w1Blk m ρ c t = ((cfg0.win 2).blk t).view.read (Elt Ideal) (w1In m ρ c) := by
    unfold w1Blk iblk0
    rfl
  rw [hb, read_w1 (w1In m ρ c) t l k, w1In_eq]

/-- The first bias block, a row, holds the first bias. -/
private theorem b1Blk_apply (c : Dev nD) (t : Fin cfg0.N) (k : Fin 128) :
    b1Blk m ρ c t (ix2 (0 : Fin 1) k) = aB1 m c (ix1 k) := by
  have hb : b1Blk m ρ c t = ((cfg0.win 3).blk t).view.read (Elt Ideal) (b1Row m ρ c) := by
    unfold b1Blk iblk0
    rfl
  rw [hb, read_b1 (b1Row m ρ c) t k, b1Row_apply]

/-- The second weight block is the second weight matrix. -/
private theorem w2Blk_apply (c : Dev nD) (t : Fin cfg0.N) (k j : Fin 128) :
    w2Blk m ρ c t (ix2 k j) = aW2 m c (ix2 k j) := by
  have hb : w2Blk m ρ c t = ((cfg0.win 4).blk t).view.read (Elt Ideal) (w2In m ρ c) := by
    unfold w2Blk iblk0
    rfl
  rw [hb, read_w2 (w2In m ρ c) t k j, w2In_eq]

/-- The second bias block, a row, holds the second bias. -/
private theorem b2Blk_apply (c : Dev nD) (t : Fin cfg0.N) (j : Fin 128) :
    b2Blk m ρ c t (ix2 (0 : Fin 1) j) = aB2 m c (ix1 j) := by
  have hb : b2Blk m ρ c t = ((cfg0.win 5).blk t).view.read (Elt Ideal) (b2Row m ρ c) := by
    unfold b2Blk iblk0
    rfl
  rw [hb, read_b2 (b2Row m ρ c) t j, b2Row_apply]

/-! ## The block of hidden features -/

/-- Entry (q, j) of the block of hidden features of point `t` is the hidden feature of row 2000·t+q, column j. -/
theorem hBlk_apply (c : Dev nD) (t : Fin cfg0.N) (q : Fin 2000) (j : Fin 128) :
    hBlk m ρ c t (ix2 q j) = hidK m c (rowOf t q) j := by
  -- the block's arithmetic at one entry: two affine maps, each followed by max(·, 0)
  refine (pay4_apply (xBlk m ρ c t) (aBlk m ρ c t) (w1Blk m ρ c t) (w2Blk m ρ c t) (b1Blk m ρ c t) (b2Blk m ρ c t) q j).trans ?_
  unfold hidK Cert.Spec.hid
  -- the outer affine map: second bias, then the sum over the hidden index k
  rw [b2Blk_apply]
  refine congrArg (fun s => max (s + aB2 m c (ix1 j)) 0) ?_
  refine Finset.sum_congr rfl (fun k _ => ?_)
  -- the inner affine map: first bias, then the sum over the input index l
  rw [w2Blk_apply, b1Blk_apply]
  refine congrArg (fun s => max (s + aB1 m c (ix1 k)) 0 * aW2 m c (ix2 k j)) ?_
  refine Finset.sum_congr rfl (fun l _ => ?_)
  -- a row's own features plus its neighbours' sum, against the first weight matrix
  rw [xBlk_apply, aBlk_apply, w1Blk_apply]
  rfl

end Cert.KernelIdeal.Val

end
-- ==== Proof.KFeat.lean ====
/-
  The feature array after the first kernel: every grid point writes its block of hidden features back to rows
  2000·t … 2000·t+1999, the fifty blocks tile the array, so entry (r, j) is the hidden feature of row r, column j.
-/
import proofs.«176753_j82042465288993_1_alg».proof.Proof.KDefs
import proofs.«176753_j82042465288993_1_alg».proof.Proof.KBody
import proofs.«176753_j82042465288993_1_alg».proof.Proof.KBlocks
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- What the first output buffer holds after point `t`: that point's block of hidden features. -/
theorem outs_feat (c : Dev nD) (t : Fin cfg0.N) : (outsAt0 (V1 m ρ) c t.val t.isLt).1 = hBlk m ρ c t := by
  -- at the first point and at every later one alike, the body's one store over the whole feature buffer leaves
  -- its arithmetic on the six input blocks of the point
  by_cases h0 : t.val % 50 = 0
  · rw [outsAt0_A (V1 m ρ) c t h0]
    dsimp only
    exact out0_A_6_eq (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      (ms0_8 t) (hs0_8 t) ((hcond0_0 t).mpr h0)
      (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t)
  · rw [outsAt0_B (V1 m ρ) c t h0]
    dsimp only
    exact out0_B_6_eq (F := Ideal) c (grid0.coords t) (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (ms0_7 t) (hs0_7 t)
      (ms0_8 t) (hs0_8 t) (fun h => h0 ((hcond0_0 t).mp h))
      (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t)
      (outsAt0 (V1 m ρ) c (t.val - 1) (Nat.lt_of_le_of_lt (Nat.sub_le _ _) t.isLt)).2.1
      (outsAt0 (V1 m ρ) c (t.val - 1) (Nat.lt_of_le_of_lt (Nat.sub_le _ _) t.isLt)).2.2

namespace Feat

/-- The hidden features of every row and column, as one array. -/
abbrev featG (c : Dev nD) : FVec Ideal S100000x128 .f32 :=
  fun i => hidK m c ⟨(i 0).val, idx2_lt0 i⟩ ⟨(i 1).val, idx2_lt1 i⟩

/-- The feature window's block index at point `t`: block `t` along the rows, block 0 along the columns. -/
theorem featIdx : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- What point `t` writes back is block `t` of the array of hidden features: entry (q, j) of the block sits in the
    array at row 2000·t+q, column j, and the block's entry there is that row's hidden feature. -/
theorem flushed_feat (c : Dev nD) (t : Fin cfg0.N) :
    (dat0 (V1 m ρ) c).flushed 6 t = ((cfg0.win 6).blk t).view.read (Elt Ideal) (featG m c) := by
  show (cfg0.win 6).cut (grid0.coords t) ((dat0 (V1 m ρ) c).after 6 t) = _
  rw [after0_6, outs_feat]
  obtain ⟨e0, e1⟩ := featIdx t
  funext y
  obtain ⟨q, j, rfl⟩ : ∃ (q : Fin 2000) (j : Fin 128), y = ix2 q j := ⟨y 0, y 1, eq_ix2 y⟩
  rw [View.read_apply]
  show hBlk m ρ c t (ix2 q j) = featG m c (((cfg0.win 6).blk t).view.emb (ix2 q j))
  rw [hBlk_apply]
  -- a block's coordinate in the array is block index × block size + 1 × the coordinate inside the block
  refine congrArg₂ (hidK m c) (Fin.ext ?_) (Fin.ext ?_)
  · show 2000 * t.val + q.val = win0_6.index t (0 : Fin 2) * 2000 + 1 * q.val
    omega
  · show j.val = win0_6.index t (1 : Fin 2) * 128 + 1 * j.val
    omega

/-- An index of the array lies in point `t`'s block iff each coordinate lies in the block's range on its axis. -/
theorem mem_featBlk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v18_0).slice (win0_6.rect t)).set ↔ _
  rw [View.set_slice_whole, Rect.mem_set_unit]
  exact Iff.rfl

/-- Row r lies in the block of point r / 2000, and every point writes its block back: the fifty blocks tile the array. -/
theorem feat_cover (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  have hN : cfg0.N = 50 := N_0
  obtain ⟨t, ht⟩ : ∃ t : Fin cfg0.N, t.val = (i 0).val / 2000 := ⟨⟨(i 0).val / 2000, by omega⟩, rfl⟩
  obtain ⟨e0, e1⟩ := featIdx t
  refine ⟨t, flush0_6 t, ?_⟩
  rw [mem_featBlk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- So after the last point the feature array holds the hidden features of every row. -/
theorem featArr_eq (c : Dev nD) : featArr m ρ c = featG m c :=
  (dat0 (V1 m ρ) c).arrAt_eq_of_cover 6 (featG m c) (fun t _ => flushed_feat m ρ c t) feat_cover

end Feat

/-- The feature array at row `r`, column `j`. -/
theorem featArr_apply (c : Dev nD) (r : Fin 100000) (j : Fin 128) : featArr m ρ c (ix2 r j) = hidK m c r j := by
  rw [Feat.featArr_eq]

end Cert.KernelIdeal.Val

end
-- ==== Proof.KSums.lean ====
/-
  The two one-row arrays after the first kernel: point by point the running rows grow by one block's column sums
  (of the hidden features, and of their squares), starting from zero at the first point; only the last point writes
  them back; fifty blocks of 2000 rows are the 100000 rows, so the rows end at the column sums over all rows.
-/
import proofs.«176753_j82042465288993_1_alg».proof.Proof.KDefs
import proofs.«176753_j82042465288993_1_alg».proof.Proof.KBody
import proofs.«176753_j82042465288993_1_alg».proof.Proof.KPay
import proofs.«176753_j82042465288993_1_alg».proof.Proof.KBlocks
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The last grid point, the only one at which the two one-row outputs are written back. -/
private abbrev tLast : Fin cfg0.N := ⟨49, by rw [show cfg0.N = 50 from N_0]; decide⟩

/-! ## The column sums -/

/-- The column sum of the hidden features over the rows of block `s` (zero past the last block). -/
private def blkSum (c : Dev nD) (j : Fin 128) (s : ℕ) : EReal :=
  if h : s < cfg0.N then ∑ q : Fin 2000, hidK m c (rowOf ⟨s, h⟩ q) j else 0

/-- The column sum of the block of hidden features that point `t` computes is that sum. -/
private theorem blkSum_eq (c : Dev nD) (j : Fin 128) (t : Fin cfg0.N) :
    (∑ q : Fin 2000, k0_pay4 (F := Ideal) (xBlk m ρ c t) (aBlk m ρ c t) (w1Blk m ρ c t) (w2Blk m ρ c t) (b1Blk m ρ c t) (b2Blk m ρ c t) (ix2 q j))
      = blkSum m c j t.val := by
  unfold blkSum
  rw [dif_pos t.isLt]
  exact Finset.sum_congr rfl fun q _ => hBlk_apply m ρ c t q j

/-- After point `n` the running row holds the column sums of blocks 0 … n, added up. -/
private theorem run_sum (c : Dev nD) (j : Fin 128) : ∀ (n : ℕ) (hn : n < cfg0.N),
    ((outsAt0 (V1 m ρ) c n hn).2.1 : FVec Ideal S1x128 .f32) (ix2 (0 : Fin 1) j)
      = ∑ s ∈ Finset.range (n + 1), blkSum m c j s
  | 0, hn => by
    -- the first point: the row is set to zero, then the block's sums are added
    rw [outsAt0_A (V1 m ρ) c ⟨0, hn⟩ (Nat.zero_mod _)]
    dsimp only
    refine (congrFun (out0_A_7_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (xBlk m ρ c ⟨0, hn⟩) (aBlk m ρ c ⟨0, hn⟩) (w1Blk m ρ c ⟨0, hn⟩) (b1Blk m ρ c ⟨0, hn⟩) (w2Blk m ρ c ⟨0, hn⟩) (b2Blk m ρ c ⟨0, hn⟩)) (ix2 (0 : Fin 1) j)).trans ?_
    refine (pay5_apply (xBlk m ρ c ⟨0, hn⟩) (aBlk m ρ c ⟨0, hn⟩) (w1Blk m ρ c ⟨0, hn⟩) (w2Blk m ρ c ⟨0, hn⟩) (b1Blk m ρ c ⟨0, hn⟩) (b2Blk m ρ c ⟨0, hn⟩) (k0_pay2 (F := Ideal)) j).trans ?_
    rw [pay2_apply j, zero_add, Finset.sum_range_one]
    exact blkSum_eq m ρ c j ⟨0, hn⟩
  | n + 1, hn => by
    -- a later point: the block's sums are added onto what the point before left
    have hN : cfg0.N = 50 := N_0
    have hB : ¬(⟨n + 1, hn⟩ : Fin cfg0.N).val % 50 = 0 := by dsimp only; omega
    rw [outsAt0_B (V1 m ρ) c ⟨n + 1, hn⟩ hB]
    dsimp only
    refine (congrFun (out0_B_7_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (xBlk m ρ c ⟨n + 1, hn⟩) (aBlk m ρ c ⟨n + 1, hn⟩) (w1Blk m ρ c ⟨n + 1, hn⟩) (b1Blk m ρ c ⟨n + 1, hn⟩) (w2Blk m ρ c ⟨n + 1, hn⟩) (b2Blk m ρ c ⟨n + 1, hn⟩) (outsAt0 (V1 m ρ) c n (Nat.lt_of_succ_lt hn)).2.1 (outsAt0 (V1 m ρ) c n (Nat.lt_of_succ_lt hn)).2.2) (ix2 (0 : Fin 1) j)).trans ?_
    refine (pay5_apply (xBlk m ρ c ⟨n + 1, hn⟩) (aBlk m ρ c ⟨n + 1, hn⟩) (w1Blk m ρ c ⟨n + 1, hn⟩) (w2Blk m ρ c ⟨n + 1, hn⟩) (b1Blk m ρ c ⟨n + 1, hn⟩) (b2Blk m ρ c ⟨n + 1, hn⟩) (outsAt0 (V1 m ρ) c n (Nat.lt_of_succ_lt hn)).2.1 j).trans ?_
    rw [Finset.sum_range_succ _ (n + 1), run_sum c j n (Nat.lt_of_succ_lt hn)]
    exact congrArg (_ + ·) (blkSum_eq m ρ c j ⟨n + 1, hn⟩)

/-- The same, at a grid point. -/
private theorem run_sum_at (c : Dev nD) (j : Fin 128) (t : Fin cfg0.N) :
    ((outsAt0 (V1 m ρ) c t.val t.isLt).2.1 : FVec Ideal S1x128 .f32) (ix2 (0 : Fin 1) j)
      = ∑ s ∈ Finset.range (t.val + 1), blkSum m c j s := run_sum m ρ c j t.val t.isLt

/-- At the last point the block of the one-row array sits at offsets zero: read through it, a row is itself, whatever it holds. -/
private theorem whole7 (R : FVec Ideal S1x128 .f32) :
    (cfg0.win 7).cut (grid0.coords tLast) R = ((cfg0.win 7).blk tLast).view.read (Elt Ideal) R := by
  have hz' : (fun a => win0_7.index tLast a * main_v18_1.ty.shape.size a) = fun _ => 0 := funext fun a => by fin_cases a <;> rfl
  exact (Memref.read_access_unit_zero (Elt Ideal) main_v18_1 hz' (fun a => by rw [congrFun hz' a]; simp) R).symm

/-- The only write-back, at the last point, writes the running row as that point leaves it. -/
private theorem flushed7_eq (c : Dev nD) (R : FVec Ideal S1x128 .f32)
    (hR : R = (outsAt0 (V1 m ρ) c tLast.val tLast.isLt).2.1) (t : Fin cfg0.N) (hf : (cfg0.win 7).flush t = true) :
    (dat0 (V1 m ρ) c).flushed 7 t = ((cfg0.win 7).blk t).view.read (Elt Ideal) R := by
  have hN : cfg0.N = 50 := N_0
  have h49 : t.val = 49 := by have := (flush0_7 t).mp hf; have := t.isLt; omega
  obtain rfl : t = tLast := Fin.ext h49
  show (cfg0.win 7).cut (grid0.coords tLast) ((dat0 (V1 m ρ) c).after 7 tLast) = _
  rw [after0_7, ← hR]
  exact whole7 R

/-- The last point's block covers every index of the one-row array. -/
private theorem cover7 (i : S1x128.Idx) : i ∈ ((cfg0.win 7).blk tLast).view.set := by
  show i ∈ ((View.whole main_v18_1).slice (win0_7.rect tLast)).set
  rw [View.set_slice_whole, Rect.mem_set_unit]
  intro a
  have h0 : (i 0 : Nat) < 1 := (i 0).isLt
  have h1 : (i 1 : Nat) < 128 := (i 1).isLt
  match a with
  | ⟨0, _⟩ => show win0_7.index tLast 0 * win0_7.size 0 ≤ (i 0 : Nat) ∧ (i 0 : Nat) < win0_7.index tLast 0 * win0_7.size 0 + win0_7.xsize (grid0.coords tLast) 0
              rw [show win0_7.index tLast 0 * win0_7.size 0 = 0 from by decide +kernel, show win0_7.xsize (grid0.coords tLast) 0 = 1 from by decide +kernel]; omega
  | ⟨1, _⟩ => show win0_7.index tLast 1 * win0_7.size 1 ≤ (i 1 : Nat) ∧ (i 1 : Nat) < win0_7.index tLast 1 * win0_7.size 1 + win0_7.xsize (grid0.coords tLast) 1
              rw [show win0_7.index tLast 1 * win0_7.size 1 = 0 from by decide +kernel, show win0_7.xsize (grid0.coords tLast) 1 = 128 from by decide +kernel]; omega

/-- So the array ends holding the running row of the last point. -/
private theorem sumRow_eq (c : Dev nD) (R : FVec Ideal S1x128 .f32)
    (hR : R = (outsAt0 (V1 m ρ) c tLast.val tLast.isLt).2.1) : sumRow m ρ c = R :=
  (dat0 (V1 m ρ) c).arrAt_eq_of_cover 7 R (flushed7_eq m ρ c R hR) fun i =>
    ⟨tLast, (flush0_7 tLast).mpr rfl, cover7 i⟩

/-- Fifty block sums are the sum over all rows. -/
private theorem total_sum (c : Dev nD) (j : Fin 128) :
    (∑ s ∈ Finset.range 50, blkSum m c j s) = ∑ r : Fin 100000, hidK m c r j := by
  rw [← Cert.Spec.sum_blocks (fun r : Fin 100000 => hidK m c r j), Finset.sum_range]
  refine Finset.sum_congr rfl fun t _ => ?_
  unfold blkSum
  rw [dif_pos (show (t : ℕ) < cfg0.N from lt_of_lt_of_eq t.isLt N_0.symm)]

/-! ## The column sums of squares: the same road over the third output -/

/-- The column sum of the squared hidden features over the rows of block `s` (zero past the last block). -/
private def blkSq (c : Dev nD) (j : Fin 128) (s : ℕ) : EReal :=
  if h : s < cfg0.N then ∑ q : Fin 2000, hidK m c (rowOf ⟨s, h⟩ q) j * hidK m c (rowOf ⟨s, h⟩ q) j else 0

/-- The column sum of squares of the block of hidden features that point `t` computes is that sum. -/
private theorem blkSq_eq (c : Dev nD) (j : Fin 128) (t : Fin cfg0.N) :
    (∑ q : Fin 2000, k0_pay4 (F := Ideal) (xBlk m ρ c t) (aBlk m ρ c t) (w1Blk m ρ c t) (w2Blk m ρ c t) (b1Blk m ρ c t) (b2Blk m ρ c t) (ix2 q j) * k0_pay4 (F := Ideal) (xBlk m ρ c t) (aBlk m ρ c t) (w1Blk m ρ c t) (w2Blk m ρ c t) (b1Blk m ρ c t) (b2Blk m ρ c t) (ix2 q j))
      = blkSq m c j t.val := by
  unfold blkSq
  rw [dif_pos t.isLt]
  exact Finset.sum_congr rfl fun q _ => congrArg₂ (· * ·) (hBlk_apply m ρ c t q j) (hBlk_apply m ρ c t q j)

/-- After point `n` the second running row holds the column sums of squares of blocks 0 … n, added up. -/
private theorem run_sq (c : Dev nD) (j : Fin 128) : ∀ (n : ℕ) (hn : n < cfg0.N),
    ((outsAt0 (V1 m ρ) c n hn).2.2 : FVec Ideal S1x128 .f32) (ix2 (0 : Fin 1) j)
      = ∑ s ∈ Finset.range (n + 1), blkSq m c j s
  | 0, hn => by
    -- the first point: the row is set to zero, then the block's sums are added
    rw [outsAt0_A (V1 m ρ) c ⟨0, hn⟩ (Nat.zero_mod _)]
    dsimp only
    refine (congrFun (out0_A_8_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (xBlk m ρ c ⟨0, hn⟩) (aBlk m ρ c ⟨0, hn⟩) (w1Blk m ρ c ⟨0, hn⟩) (b1Blk m ρ c ⟨0, hn⟩) (w2Blk m ρ c ⟨0, hn⟩) (b2Blk m ρ c ⟨0, hn⟩)) (ix2 (0 : Fin 1) j)).trans ?_
    refine (pay1_apply (k0_pay4 (F := Ideal) (xBlk m ρ c ⟨0, hn⟩) (aBlk m ρ c ⟨0, hn⟩) (w1Blk m ρ c ⟨0, hn⟩) (w2Blk m ρ c ⟨0, hn⟩) (b1Blk m ρ c ⟨0, hn⟩) (b2Blk m ρ c ⟨0, hn⟩)) (k0_pay3 (F := Ideal)) j).trans ?_
    rw [pay3_apply j, zero_add, Finset.sum_range_one]
    exact blkSq_eq m ρ c j ⟨0, hn⟩
  | n + 1, hn => by
    -- a later point: the block's sums are added onto what the point before left
    have hN : cfg0.N = 50 := N_0
    have hB : ¬(⟨n + 1, hn⟩ : Fin cfg0.N).val % 50 = 0 := by dsimp only; omega
    rw [outsAt0_B (V1 m ρ) c ⟨n + 1, hn⟩ hB]
    dsimp only
    refine (congrFun (out0_B_8_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => hB ((hcond0_0 ⟨n + 1, hn⟩).mp h)) (xBlk m ρ c ⟨n + 1, hn⟩) (aBlk m ρ c ⟨n + 1, hn⟩) (w1Blk m ρ c ⟨n + 1, hn⟩) (b1Blk m ρ c ⟨n + 1, hn⟩) (w2Blk m ρ c ⟨n + 1, hn⟩) (b2Blk m ρ c ⟨n + 1, hn⟩) (outsAt0 (V1 m ρ) c n (Nat.lt_of_succ_lt hn)).2.1 (outsAt0 (V1 m ρ) c n (Nat.lt_of_succ_lt hn)).2.2) (ix2 (0 : Fin 1) j)).trans ?_
    refine (pay1_apply (k0_pay4 (F := Ideal) (xBlk m ρ c ⟨n + 1, hn⟩) (aBlk m ρ c ⟨n + 1, hn⟩) (w1Blk m ρ c ⟨n + 1, hn⟩) (w2Blk m ρ c ⟨n + 1, hn⟩) (b1Blk m ρ c ⟨n + 1, hn⟩) (b2Blk m ρ c ⟨n + 1, hn⟩)) (outsAt0 (V1 m ρ) c n (Nat.lt_of_succ_lt hn)).2.2 j).trans ?_
    rw [Finset.sum_range_succ _ (n + 1), run_sq c j n (Nat.lt_of_succ_lt hn)]
    exact congrArg (_ + ·) (blkSq_eq m ρ c j ⟨n + 1, hn⟩)

/-- The same, at a grid point. -/
private theorem run_sq_at (c : Dev nD) (j : Fin 128) (t : Fin cfg0.N) :
    ((outsAt0 (V1 m ρ) c t.val t.isLt).2.2 : FVec Ideal S1x128 .f32) (ix2 (0 : Fin 1) j)
      = ∑ s ∈ Finset.range (t.val + 1), blkSq m c j s := run_sq m ρ c j t.val t.isLt

/-- At the last point the block of this one-row array too sits at offsets zero. -/
private theorem whole8 (R : FVec Ideal S1x128 .f32) :
    (cfg0.win 8).cut (grid0.coords tLast) R = ((cfg0.win 8).blk tLast).view.read (Elt Ideal) R := by
  have hz' : (fun a => win0_8.index tLast a * main_v18_2.ty.shape.size a) = fun _ => 0 := funext fun a => by fin_cases a <;> rfl
  exact (Memref.read_access_unit_zero (Elt Ideal) main_v18_2 hz' (fun a => by rw [congrFun hz' a]; simp) R).symm

/-- Its only write-back, at the last point, writes the second running row as that point leaves it. -/
private theorem flushed8_eq (c : Dev nD) (R : FVec Ideal S1x128 .f32)
    (hR : R = (outsAt0 (V1 m ρ) c tLast.val tLast.isLt).2.2) (t : Fin cfg0.N) (hf : (cfg0.win 8).flush t = true) :
    (dat0 (V1 m ρ) c).flushed 8 t = ((cfg0.win 8).blk t).view.read (Elt Ideal) R := by
  have hN : cfg0.N = 50 := N_0
  have h49 : t.val = 49 := by have := (flush0_8 t).mp hf; have := t.isLt; omega
  obtain rfl : t = tLast := Fin.ext h49
  show (cfg0.win 8).cut (grid0.coords tLast) ((dat0 (V1 m ρ) c).after 8 tLast) = _
  rw [after0_8, ← hR]
  exact whole8 R

/-- The last point's block covers every index of this one-row array. -/
private theorem cover8 (i : S1x128.Idx) : i ∈ ((cfg0.win 8).blk tLast).view.set := by
  show i ∈ ((View.whole main_v18_2).slice (win0_8.rect tLast)).set
  rw [View.set_slice_whole, Rect.mem_set_unit]
  intro a
  have h0 : (i 0 : Nat) < 1 := (i 0).isLt
  have h1 : (i 1 : Nat) < 128 := (i 1).isLt
  match a with
  | ⟨0, _⟩ => show win0_8.index tLast 0 * win0_8.size 0 ≤ (i 0 : Nat) ∧ (i 0 : Nat) < win0_8.index tLast 0 * win0_8.size 0 + win0_8.xsize (grid0.coords tLast) 0
              rw [show win0_8.index tLast 0 * win0_8.size 0 = 0 from by decide +kernel, show win0_8.xsize (grid0.coords tLast) 0 = 1 from by decide +kernel]; omega
  | ⟨1, _⟩ => show win0_8.index tLast 1 * win0_8.size 1 ≤ (i 1 : Nat) ∧ (i 1 : Nat) < win0_8.index tLast 1 * win0_8.size 1 + win0_8.xsize (grid0.coords tLast) 1
              rw [show win0_8.index tLast 1 * win0_8.size 1 = 0 from by decide +kernel, show win0_8.xsize (grid0.coords tLast) 1 = 128 from by decide +kernel]; omega

/-- So the array ends holding the second running row of the last point. -/
private theorem sqRow_eq (c : Dev nD) (R : FVec Ideal S1x128 .f32)
    (hR : R = (outsAt0 (V1 m ρ) c tLast.val tLast.isLt).2.2) : sqRow m ρ c = R :=
  (dat0 (V1 m ρ) c).arrAt_eq_of_cover 8 R (flushed8_eq m ρ c R hR) fun i =>
    ⟨tLast, (flush0_8 tLast).mpr rfl, cover8 i⟩

/-- Fifty block sums of squares are the sum of squares over all rows. -/
private theorem total_sq (c : Dev nD) (j : Fin 128) :
    (∑ s ∈ Finset.range 50, blkSq m c j s) = ∑ r : Fin 100000, hidK m c r j * hidK m c r j := by
  rw [← Cert.Spec.sum_blocks (fun r : Fin 100000 => hidK m c r j * hidK m c r j), Finset.sum_range]
  refine Finset.sum_congr rfl fun t _ => ?_
  unfold blkSq
  rw [dif_pos (show (t : ℕ) < cfg0.N from lt_of_lt_of_eq t.isLt N_0.symm)]

/-! ## The two rows -/

/-- The column sums. -/
theorem sumRow_apply (c : Dev nD) (j : Fin 128) : sumRow m ρ c (ix2 (0 : Fin 1) j) = Cert.Spec.colSum (hidK m c) j := by
  rw [sumRow_eq m ρ c _ rfl]
  exact (run_sum_at m ρ c j tLast).trans (total_sum m c j)

/-- The column sums of squares. -/
theorem sqRow_apply (c : Dev nD) (j : Fin 128) : sqRow m ρ c (ix2 (0 : Fin 1) j) = Cert.Spec.colSumSq (hidK m c) j := by
  rw [sqRow_eq m ρ c _ rfl]
  exact (run_sq_at m ρ c j tLast).trans (total_sq m c j)

end Cert.KernelIdeal.Val

end
-- ==== Proof.KRegion0.lean ====
/-
  What the first kernel leaves in its three result arrays, gathered: the feature array and the two column-sum rows.
-/
import proofs.«176753_j82042465288993_1_alg».proof.Proof.KFeat
import proofs.«176753_j82042465288993_1_alg».proof.Proof.KSums
-- ==== Proof.KRegion1.lean ====
/-
  What the second kernel leaves in the result array, at the ideal instance: entry (r, j) is the feature it read
  there minus the mean row's entry j, times the reciprocal-deviation row's, times the scale row's, plus the shift
  row's — block t of the result is what point t computed, and the fifty blocks tile the array.
-/
import proofs.«176753_j82042465288993_1_alg».proof.Proof.KDefs
import proofs.«176753_j82042465288993_1_alg».proof.Proof.KBody
import proofs.«176753_j82042465288993_1_alg».proof.Proof.KPay
import Idealize.ShloMosaic.Lib.Pipeline.Value
import Idealize.ShloMosaic.Lib.ValueIdx

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

namespace Region1

/-- A feature array normalised entry by entry by four rows read at the entry's column. -/
def normArr (h : FVec Ideal S100000x128 .f32) (mu is g b : FVec Ideal S1x128 .f32) : FVec Ideal S100000x128 .f32 :=
  fun i => ((h (ix2 ⟨(i 0).val, idx2_lt0 i⟩ ⟨(i 1).val, idx2_lt1 i⟩) - mu (ix2 (0 : Fin 1) ⟨(i 1).val, idx2_lt1 i⟩))
      * is (ix2 (0 : Fin 1) ⟨(i 1).val, idx2_lt1 i⟩)) * g (ix2 (0 : Fin 1) ⟨(i 1).val, idx2_lt1 i⟩)
    + b (ix2 (0 : Fin 1) ⟨(i 1).val, idx2_lt1 i⟩)

/-- Read at row r, column j. -/
theorem normArr_apply (h : FVec Ideal S100000x128 .f32) (mu is g b : FVec Ideal S1x128 .f32) (r : Fin 100000) (j : Fin 128) :
    normArr h mu is g b (ix2 r j)
      = ((h (ix2 r j) - mu (ix2 (0 : Fin 1) j)) * is (ix2 (0 : Fin 1) j)) * g (ix2 (0 : Fin 1) j) + b (ix2 (0 : Fin 1) j) := rfl

/-- Where each window's block sits at grid point t: the feature and result windows at block row t, the four row windows at the one block. -/
theorem idx_facts1 : ∀ t : Fin cfg1.N, (win1_0.index t 0 = t.val ∧ win1_0.index t 1 = 0)
    ∧ (win1_1.index t 0 = 0 ∧ win1_1.index t 1 = 0) ∧ (win1_2.index t 0 = 0 ∧ win1_2.index t 1 = 0)
    ∧ (win1_3.index t 0 = 0 ∧ win1_3.index t 1 = 0) ∧ (win1_4.index t 0 = 0 ∧ win1_4.index t 1 = 0)
    ∧ (win1_5.index t 0 = t.val ∧ win1_5.index t 1 = 0) :=
  (by decide +kernel : ∀ t : Fin grid1.N, _)

/-- The feature window's block at point t holds rows 2000·t … 2000·t + 1999 of the feature array. -/
theorem hblk_apply (c : Dev nD) (t : Fin cfg1.N) (q : Fin 2000) (j : Fin 128) (hr : 2000 * t.val + q.val < 100000) :
    (iblk1 (V3 m ρ) c 0 t : Vec Ideal S2000x128 .f32) (ix2 q j) = hIn m ρ c (ix2 ⟨2000 * t.val + q.val, hr⟩ j) := by
  obtain ⟨⟨e0, e1⟩, -⟩ := idx_facts1 t
  unfold iblk1
  rw [View.read_apply]
  show V3 m ρ c main_v18_0 _ = V3 m ρ c main_v18_0 _
  congr 1
  funext a
  apply Fin.ext
  match a with
  | ⟨0, _⟩ => show win1_0.index t 0 * 2000 + 1 * q.val = 2000 * t.val + q.val; rw [e0]; omega
  | ⟨1, _⟩ => show win1_0.index t 1 * 128 + 1 * j.val = j.val; rw [e1]; omega

/-- A row window's block at any grid point is the whole row array: the mean row, -/
theorem row1_apply (c : Dev nD) (t : Fin cfg1.N) (j : Fin 128) :
    (iblk1 (V3 m ρ) c 1 t : Vec Ideal S1x128 .f32) (ix2 (0 : Fin 1) j) = muRow m ρ c (ix2 (0 : Fin 1) j) := by
  obtain ⟨-, ⟨e0, e1⟩, -⟩ := idx_facts1 t
  unfold iblk1
  rw [View.read_apply]
  show V3 m ρ c main_v30 _ = V3 m ρ c main_v30 _
  congr 1
  funext a
  apply Fin.ext
  match a with
  | ⟨0, _⟩ => show win1_1.index t 0 * 1 + 1 * 0 = 0; rw [e0]
  | ⟨1, _⟩ => show win1_1.index t 1 * 128 + 1 * j.val = j.val; rw [e1]; omega

/-- the reciprocal-deviation row, -/
theorem row2_apply (c : Dev nD) (t : Fin cfg1.N) (j : Fin 128) :
    (iblk1 (V3 m ρ) c 2 t : Vec Ideal S1x128 .f32) (ix2 (0 : Fin 1) j) = isRow m ρ c (ix2 (0 : Fin 1) j) := by
  obtain ⟨-, -, ⟨e0, e1⟩, -⟩ := idx_facts1 t
  unfold iblk1
  rw [View.read_apply]
  show V3 m ρ c main_v31 _ = V3 m ρ c main_v31 _
  congr 1
  funext a
  apply Fin.ext
  match a with
  | ⟨0, _⟩ => show win1_2.index t 0 * 1 + 1 * 0 = 0; rw [e0]
  | ⟨1, _⟩ => show win1_2.index t 1 * 128 + 1 * j.val = j.val; rw [e1]; omega

/-- the scale row, -/
theorem row3_apply (c : Dev nD) (t : Fin cfg1.N) (j : Fin 128) :
    (iblk1 (V3 m ρ) c 3 t : Vec Ideal S1x128 .f32) (ix2 (0 : Fin 1) j) = gRow m ρ c (ix2 (0 : Fin 1) j) := by
  obtain ⟨-, -, -, ⟨e0, e1⟩, -⟩ := idx_facts1 t
  unfold iblk1
  rw [View.read_apply]
  show V3 m ρ c main_v16 _ = V3 m ρ c main_v16 _
  congr 1
  funext a
  apply Fin.ext
  match a with
  | ⟨0, _⟩ => show win1_3.index t 0 * 1 + 1 * 0 = 0; rw [e0]
  | ⟨1, _⟩ => show win1_3.index t 1 * 128 + 1 * j.val = j.val; rw [e1]; omega

/-- and the shift row. -/
theorem row4_apply (c : Dev nD) (t : Fin cfg1.N) (j : Fin 128) :
    (iblk1 (V3 m ρ) c 4 t : Vec Ideal S1x128 .f32) (ix2 (0 : Fin 1) j) = btRow m ρ c (ix2 (0 : Fin 1) j) := by
  obtain ⟨-, -, -, -, ⟨e0, e1⟩, -⟩ := idx_facts1 t
  unfold iblk1
  rw [View.read_apply]
  show V3 m ρ c main_v17 _ = V3 m ρ c main_v17 _
  congr 1
  funext a
  apply Fin.ext
  match a with
  | ⟨0, _⟩ => show win1_4.index t 0 * 1 + 1 * 0 = 0; rw [e0]
  | ⟨1, _⟩ => show win1_4.index t 1 * 128 + 1 * j.val = j.val; rw [e1]; omega

/-- What grid point t writes back is block t of the normalised array. -/
theorem flushed1_eq (c : Dev nD) (t : Fin cfg1.N) :
    (dat1 (V3 m ρ) c).flushed 5 t
      = ((cfg1.win 5).blk t).view.read (Elt Ideal) (normArr (hIn m ρ c) (muRow m ρ c) (isRow m ρ c) (gRow m ρ c) (btRow m ρ c)) := by
  show (cfg1.win 5).cut (grid1.coords t) ((dat1 (V3 m ρ) c).after 5 t) = _
  rw [after1_5, out1_5_eq]
  funext y
  obtain ⟨q, j, rfl⟩ : ∃ (q : Fin 2000) (j : Fin 128), y = ix2 q j := ⟨y 0, y 1, eq_ix2 y⟩
  obtain ⟨-, -, -, -, -, e0, e1⟩ := idx_facts1 t
  have ht : t.val < 50 := lt_of_lt_of_eq t.isLt N_1
  have hr : 2000 * t.val + q.val < 100000 := by have := q.isLt; omega
  have hx : (cfg1.win 5).xinj (grid1.coords t) (ix2 q j) = (ix2 q j : S2000x128.Idx) :=
    funext fun a => by match a with | ⟨0, _⟩ => rfl | ⟨1, _⟩ => rfl
  have hemb : ((cfg1.win 5).blk t).view.emb (ix2 q j) = (ix2 ⟨2000 * t.val + q.val, hr⟩ j : S100000x128.Idx) := by
    funext a
    apply Fin.ext
    match a with
    | ⟨0, _⟩ => show win1_5.index t 0 * 2000 + 1 * q.val = 2000 * t.val + q.val; rw [e0]; omega
    | ⟨1, _⟩ => show win1_5.index t 1 * 128 + 1 * j.val = j.val; rw [e1]; omega
  refine (congrArg (k1_pay1 (F := Ideal) (iblk1 (V3 m ρ) c 0 t) (iblk1 (V3 m ρ) c 1 t) (iblk1 (V3 m ρ) c 2 t) (iblk1 (V3 m ρ) c 3 t) (iblk1 (V3 m ρ) c 4 t)) hx).trans ?_
  refine (k1_pay1_apply (iblk1 (V3 m ρ) c 0 t) (iblk1 (V3 m ρ) c 1 t) (iblk1 (V3 m ρ) c 2 t) (iblk1 (V3 m ρ) c 3 t) (iblk1 (V3 m ρ) c 4 t) q j).trans ?_
  rw [hblk_apply m ρ c t q j hr, row1_apply, row2_apply, row3_apply, row4_apply, View.read_apply]
  show _ = normArr (hIn m ρ c) (muRow m ρ c) (isRow m ρ c) (gRow m ρ c) (btRow m ρ c) (((cfg1.win 5).blk t).view.emb (ix2 q j))
  rw [hemb, normArr_apply]

/-- An entry lies in point t's result block iff its row is among the block's 2000 rows (and its column among all 128). -/
theorem mem_blk1 (t : Fin cfg1.N) (i : S100000x128.Idx) :
    i ∈ ((cfg1.win 5).blk t).view.set
      ↔ ∀ a : Fin 2, win1_5.index t a * S2000x128.size a ≤ (i a).val ∧ (i a).val < win1_5.index t a * S2000x128.size a + S2000x128.size a := by
  show i ∈ ((View.whole main_v32).slice (win1_5.rect t)).set ↔ _
  rw [View.set_slice_whole, Rect.mem_set_unit]
  exact Iff.rfl

/-- Row r lies in the block of point r / 2000: the fifty blocks tile the array. -/
theorem cover1 (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have hN : cfg1.N = 50 := N_1
  have htl : (i 0).val / 2000 < cfg1.N := by rw [hN]; omega
  obtain ⟨-, -, -, -, -, e0, e1⟩ := idx_facts1 ⟨(i 0).val / 2000, htl⟩
  refine ⟨⟨(i 0).val / 2000, htl⟩, flush1_5 _, ?_⟩
  rw [mem_blk1]
  intro a
  match a with
  | ⟨0, _⟩ =>
    show win1_5.index ⟨(i 0).val / 2000, htl⟩ 0 * 2000 ≤ (i 0).val ∧ (i 0).val < win1_5.index ⟨(i 0).val / 2000, htl⟩ 0 * 2000 + 2000
    rw [e0]
    show (i 0).val / 2000 * 2000 ≤ (i 0).val ∧ (i 0).val < (i 0).val / 2000 * 2000 + 2000
    omega
  | ⟨1, _⟩ =>
    show win1_5.index ⟨(i 0).val / 2000, htl⟩ 1 * 128 ≤ (i 1).val ∧ (i 1).val < win1_5.index ⟨(i 0).val / 2000, htl⟩ 1 * 128 + 128
    rw [e1]
    omega

/-- The result array is the normalised array. -/
theorem outArr_eq_normArr (c : Dev nD) :
    outArr m ρ c = normArr (hIn m ρ c) (muRow m ρ c) (isRow m ρ c) (gRow m ρ c) (btRow m ρ c) :=
  (dat1 (V3 m ρ) c).arrAt_eq_of_cover 5 (normArr (hIn m ρ c) (muRow m ρ c) (isRow m ρ c) (gRow m ρ c) (btRow m ρ c))
    (fun t _ => flushed1_eq m ρ c t) cover1

end Region1

/-- The result array at row r, column j. -/
theorem outArr_apply (c : Dev nD) (r : Fin 100000) (j : Fin 128) :
    outArr m ρ c (ix2 r j)
      = ((hIn m ρ c (ix2 r j) - muRow m ρ c (ix2 (0 : Fin 1) j)) * isRow m ρ c (ix2 (0 : Fin 1) j)) * gRow m ρ c (ix2 (0 : Fin 1) j)
        + btRow m ρ c (ix2 (0 : Fin 1) j) :=
  (congrFun (Region1.outArr_eq_normArr m ρ c) (ix2 r j)).trans
    (Region1.normArr_apply (hIn m ρ c) (muRow m ρ c) (isRow m ρ c) (gRow m ρ c) (btRow m ρ c) r j)

end Cert.KernelIdeal.Val

end
-- ==== Proof.KValue.lean ====
/-
  The kernel program run and read, at the ideal instance: its result array is the hidden features of every node
  normalised column by column, the variance taken as the mean of the squares minus the square of the mean.
-/
import proofs.«176753_j82042465288993_1_alg».proof.Proof.KDefs
import proofs.«176753_j82042465288993_1_alg».proof.Proof.KernelRun
import proofs.«176753_j82042465288993_1_alg».proof.Proof.KHost
import proofs.«176753_j82042465288993_1_alg».proof.Proof.KRegion0
import proofs.«176753_j82042465288993_1_alg».proof.Proof.KRegion1

noncomputable section

namespace Cert.KernelIdeal.Val

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The result array after the second kernel is the normalised hidden features. -/
theorem outArr_eq (c : Dev nD) : outArr m ρ c = Cert.Spec.outK (hidK m c) (aG m c) (aBt m c) := by
  funext i
  obtain ⟨r, j, rfl⟩ : ∃ (r : Fin 100000) (j : Fin 128), i = ix2 r j := ⟨i 0, i 1, eq_ix2 i⟩
  -- entry (r, j): the feature read is the hidden feature, the mean row the column sum over the row count, the
  -- reciprocal-deviation row the reciprocal root of (mean of squares − mean² + stabiliser), scale and shift the arguments'
  rw [outArr_apply, Cert.Spec.outK_apply, hIn_eq, featArr_apply, muRow_apply, isRow_apply, gRow_apply, btRow_apply,
    sumRow_apply, sqRow_apply]
  -- the column mean and the first variance are these very quotients
  rfl

/-- Every weakly fair execution of the kernel program terminates, nothing faulting, with the result array at the
    normalised hidden features and the argument arrays as launched. -/
theorem run : θ_run (defs (F := Ideal)) (onTc (τ := τ) (main (F := Ideal))) ⟨m, fun _ => 0, ρ⟩ (fun r => ∀ c : Dev nD,
      r.2.mem ((c.tc : Thread nD τ).loc main_v32) = Cert.Spec.outK (hidK m c) (aG m c) (aBt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  -- the launch leaves the result buffer at the last boundary's contents, which there is the second kernel's result array
  (θ_run defs _ _).mono
    (fun r h c => ⟨((h c).1).trans ((W4_arr m ρ c 5).trans (outArr_eq m ρ c)), (h c).2⟩)
    (Cert.KernelIdeal.Gen.run_W4 (F := Ideal) m ρ)

end Cert.KernelIdeal.Val

end
-- ==== Proof.KAgg.lean ====
/-
  The aggregated neighbour features of real features are real: each entry is zero plus a finite sum of entries of
  the features (a gather reads entries; a scatter with addition adds finitely many of them onto the zero it starts from).
-/
import proofs.«176753_j82042465288993_1_alg».proof.Proof.KDefs

noncomputable section

namespace Cert.KernelIdeal.Val

open Idealize.ShloMosaic Idealize.ShloMosaic.TcCoe Idealize.SL.Sem Idealize.ShloMosaic.ValueIdx
open Cert.KernelIdeal Cert.KernelIdeal.Gen

/-- A gather of real entries reads real entries. -/
private theorem gather_real {s si t : Shape} {w : Nat} (d : GatherDims s si t) (x : s.Idx → EReal) (idx : IVec si w)
    (hx : Cert.Spec.AllReal x) : Cert.Spec.AllReal (Host.gather d x idx) :=
  fun j => hx (d.operandIdx j idx)

/-- A scatter with addition of real updates onto real entries leaves real entries: an entry plus a finite sum. -/
private theorem scatterAdd_real {s si su : Shape} {w : Nat} (d : ScatterDims s si su) (x0 : FVec Ideal s .f32) (idx : IVec si w)
    (upd : FVec Ideal su .f32) (h0 : Cert.Spec.AllReal x0) (hu : Cert.Spec.AllReal upd) :
    Cert.Spec.AllReal (Host.scatterAdd d x0 idx upd) := by
  intro i
  show ∃ q : ℝ, Ideal.hostScatterAdd d x0 idx upd i = (q : EReal)
  unfold Ideal.hostScatterAdd
  exact Cert.Spec.add_real (h0 i) (Cert.Spec.sum_real _ _ fun j _ => hu j)

/-- A broadcast of the zero word holds the real number zero everywhere. -/
private theorem zeros_real {t : Shape} (h : (⟨0, ![]⟩ : Shape).BroadcastsInDim t (![] : Fin 0 → Fin t.rank)) :
    Cert.Spec.AllReal (broadcastInDim t ![] h (constant (F := Ideal) ⟨0, ![]⟩ .f32 0x00000000#32)) := by
  intro i
  refine ⟨0, ?_⟩
  show Ideal.ofBits .f32 0x00000000#32 = ((0 : ℝ) : EReal)
  rw [Ideal.ofBits_zero_f32]; rfl

theorem agg_real (x : FVec Ideal S100000x128 .f32) (ei : IVec S2x1600000 32) (hx : Cert.Spec.AllReal (s := S100000x128) x) :
    Cert.Spec.AllReal (s := S100000x128) (agg x ei) :=
  scatterAdd_real _ _ _ _ (zeros_real _) (gather_real _ _ _ hx)

end Cert.KernelIdeal.Val

end
-- ==== Proof.RDefs.lean ====
/-
  The reference program's side: names for its argument arrays at the ideal instance, the aggregated neighbour
  features as its host operations compute them, and the hidden features they feed.
-/
import proofs.«176753_j82042465288993_1_alg».proof.Proof.Gen.ReferenceIdeal
import proofs.«176753_j82042465288993_1_alg».proof.Proof.Spec

noncomputable section

namespace Cert.ReferenceIdeal.Val

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ) (ρ : Dev nD → PrngReg)

/-- The node features on core `c`. -/
abbrev aX (c : Dev nD) : FVec Ideal S100000x128 .f32 := m ((c : Thread nD τ).loc main_arg0)
/-- The edge list (row 0 the sources, row 1 the destinations). -/
abbrev aE (c : Dev nD) : IVec S2x1600000 32 := m ((c : Thread nD τ).loc main_arg1)
/-- First weight matrix and bias, second weight matrix and bias, scale and shift. -/
abbrev aW1 (c : Dev nD) : FVec Ideal S128x128 .f32 := m ((c : Thread nD τ).loc main_arg2)
abbrev aB1 (c : Dev nD) : FVec Ideal S128 .f32 := m ((c : Thread nD τ).loc main_arg3)
abbrev aW2 (c : Dev nD) : FVec Ideal S128x128 .f32 := m ((c : Thread nD τ).loc main_arg4)
abbrev aB2 (c : Dev nD) : FVec Ideal S128 .f32 := m ((c : Thread nD τ).loc main_arg5)
abbrev aG (c : Dev nD) : FVec Ideal S128 .f32 := m ((c : Thread nD τ).loc main_arg6)
abbrev aBt (c : Dev nD) : FVec Ideal S128 .f32 := m ((c : Thread nD τ).loc main_arg7)

/-- The sum, into every node, of the features of the sources of the edges that end at it: a gather of the source rows
    (negative indices wrapped once, then clamped) scattered with addition onto zeros at the destination rows. -/
def agg (x : FVec Ideal S100000x128 .f32) (ei : IVec S2x1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast S1600000 (extractStridedSlice S1x1600000 ![1, 0] ei slices_S2x1600000_S1x1600000_1_0) shapeCasts_S1x1600000_S1600000))
    (Host.gather gather_S100000x128_S1600000x1_S1600000x128_1_0_n_n_0_1_1128 x
      (broadcastInDim S1600000x1 ![0] bcast_S1600000_S1600000x1_0
        (select
          (cmpi .slt (shapeCast S1600000 (extractStridedSlice S1x1600000 ![0, 0] ei slices_S2x1600000_S1x1600000_0_0) shapeCasts_S1x1600000_S1600000)
            (broadcastInDim S1600000 ![] bcast_S_S1600000 (constantI S_ 32 0#32)))
          (addi (shapeCast S1600000 (extractStridedSlice S1x1600000 ![0, 0] ei slices_S2x1600000_S1x1600000_0_0) shapeCasts_S1x1600000_S1600000)
            (broadcastInDim S1600000 ![] bcast_S_S1600000 (constantI S_ 32 100000#32)))
          (shapeCast S1600000 (extractStridedSlice S1x1600000 ![0, 0] ei slices_S2x1600000_S1x1600000_0_0) shapeCasts_S1x1600000_S1600000))))

/-- The features that enter the first affine map: a node's own plus its neighbours'. -/
abbrev xa (c : Dev nD) : FVec Ideal S100000x128 .f32 := addf (aX m c) (agg (aX m c) (aE m c))

/-- The hidden features of every node. -/
abbrev hidR (c : Dev nD) : Fin 100000 → Fin 128 → EReal :=
  Cert.Spec.hid (xa m c) (aW1 m c) (aB1 m c) (aW2 m c) (aB2 m c)

end Cert.ReferenceIdeal.Val

end
-- ==== Proof.RRun.lean ====
/-
  The reference program as one straight line of host operations: the two functions it calls (the variance, and the
  select inside it) written out at their call sites over the buffers of that call, and the run of that line from
  any launch memory: every buffer ends at the operations' fold over the launch contents.
-/
import proofs.«176753_j82042465288993_1_alg».proof.Proof.Gen.ReferenceIdeal
import Idealize.ShloMosaic.Lib.StableHlo.Run

noncomputable section

namespace Cert.ReferenceIdeal.Val

open Idealize.ShloMosaic Idealize.ShloMosaic.TcCoe Idealize.SL.Sem Idealize.ShloMosaic.StableHlo
open Cert.ReferenceIdeal Cert.ReferenceIdeal.Gen

variable {F : FTy → Type} [FloatOps F]

/-- The program's seventy-six operations in order. The first seventeen sum the neighbours' features into every node;
    then the two affine layers, each followed by the maximum with zero; the column sums and the mean; the variance
    (nineteen operations of the called function over its own buffers, the three of the select it calls among them
    over theirs: the mean again, the deviations, their squares, the column sums of those, the count less the zero
    correction, the quotient, the guard that the divisor is positive, and the guarded choice); and last the
    normalisation: subtract the mean, multiply by the reciprocal square root of variance plus stabiliser, scale, shift. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v19 (broadcastInDim S100000x128 ![] bcast_S_S100000x128 : (⟨S_, .f32⟩ : BufTy).Contents (Elt F) → (⟨S100000x128, .f32⟩ : BufTy).Contents (Elt F)),
    binary main_v18 main_v19 main_v20 (maximumf : (⟨S100000x128, .f32⟩ : BufTy).Contents (Elt F) → (⟨S100000x128, .f32⟩ : BufTy).Contents (Elt F) → (⟨S100000x128, .f32⟩ : BufTy).Contents (Elt F)),
    binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    unary main_cst_2 main_v25 (broadcastInDim S100000x128 ![] bcast_S_S100000x128 : (⟨S_, .f32⟩ : BufTy).Contents (Elt F) → (⟨S100000x128, .f32⟩ : BufTy).Contents (Elt F)),
    binary main_v24 main_v25 main_v26 (maximumf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x00000000#32),
    binary main_v26 main_cst_3 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    nullary main_c_5 (constantI S_ 32 0#32),
    TRef.nullary main_call0.cst (constant S_ .f32 0x00000000#32),
    TRef.binary (.of main_v26 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v26 : TRef sig ⟨S100000x128, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v29 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v26 main_v32 main_v33 (subf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3727C5AC#32),
    unary main_cst_6 main_v34 (broadcastInDim S128 ![] bcast_S_S128 : (⟨S_, .f32⟩ : BufTy).Contents (Elt F) → (⟨S128, .f32⟩ : BufTy).Contents (Elt F)),
    binary main_v30 main_v34 main_v35 (addf : (⟨S128, .f32⟩ : BufTy).Contents (Elt F) → (⟨S128, .f32⟩ : BufTy).Contents (Elt F) → (⟨S128, .f32⟩ : BufTy).Contents (Elt F)),
    unary main_v35 main_v36 (Host.rsqrt : (⟨S128, .f32⟩ : BufTy).Contents (Elt F) → (⟨S128, .f32⟩ : BufTy).Contents (Elt F)),
    unary main_v36 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v33 main_v38 main_v39 (mulf : (⟨S100000x128, .f32⟩ : BufTy).Contents (Elt F) → (⟨S100000x128, .f32⟩ : BufTy).Contents (Elt F) → (⟨S100000x128, .f32⟩ : BufTy).Contents (Elt F)),
    unary main_arg6 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (mulf : (⟨S100000x128, .f32⟩ : BufTy).Contents (Elt F) → (⟨S100000x128, .f32⟩ : BufTy).Contents (Elt F) → (⟨S100000x128, .f32⟩ : BufTy).Contents (Elt F)),
    unary main_arg7 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The program is that straight line: with the two functions' definitions opened at their calls and the calls' buffer
    records at their fields, sequencing computes both sides to one chain of steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- At the compiled mesh, for any float values, from any memory with zero counters: every weakly fair execution of the
    program terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Val

end
-- ==== Proof.RValue.lean ====
/-
  The reference program run and read, at the ideal instance: its result array is the hidden features of every
  node normalised column by column, the variance taken as the mean of the squared deviations from the mean.

  The run is read in three stretches (the two layers; the column means and variances; the normalisation), each
  stretch's fold a named array of the buffers it reads; the named arrays are then read entry by entry: a matrix
  product is the sum over the contracted coordinate, a column sum the sum down the rows, a broadcast row its entry,
  the guarded variance its quotient because the count of rows is positive.
-/
import proofs.«176753_j82042465288993_1_alg».proof.Proof.RDefs
import proofs.«176753_j82042465288993_1_alg».proof.Proof.RRun
import Idealize.ShloMosaic.Lib.IdealHost
import Idealize.ShloMosaic.Lib.Pipeline.Value
import Idealize.ShloMosaic.Lib.KernelVsHost

noncomputable section

open scoped BigOperators

namespace Cert.ReferenceIdeal.Val

open Idealize.ShloMosaic Idealize.ShloMosaic.TcCoe Idealize.SL.Sem Idealize.ShloMosaic.ValueIdx Idealize.ShloMosaic.StableHlo
open Cert.ReferenceIdeal Cert.ReferenceIdeal.Gen

section Stretches
variable {F : FTy → Type} [FloatOps F]

/-! ## The program's operations in three stretches -/

/-- The first thirty-two operations: the neighbour sums and the two layers, ending at the hidden features. -/
private abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v13 main_v14 (addf : (⟨S100000x128, .f32⟩ : BufTy).Contents (Elt F) → (⟨S100000x128, .f32⟩ : BufTy).Contents (Elt F) → (⟨S100000x128, .f32⟩ : BufTy).Contents (Elt F)),
    binary main_v14 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    unary main_cst_1 main_v19 (broadcastInDim S100000x128 ![] bcast_S_S100000x128 : (⟨S_, .f32⟩ : BufTy).Contents (Elt F) → (⟨S100000x128, .f32⟩ : BufTy).Contents (Elt F)),
    binary main_v18 main_v19 main_v20 (maximumf : (⟨S100000x128, .f32⟩ : BufTy).Contents (Elt F) → (⟨S100000x128, .f32⟩ : BufTy).Contents (Elt F) → (⟨S100000x128, .f32⟩ : BufTy).Contents (Elt F)),
    binary main_v20 main_arg4 main_v21 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v22 (broadcastInDim S1x128 ![1] bcast_S128_S1x128_1 : (⟨S128, .f32⟩ : BufTy).Contents (Elt F) → (⟨S1x128, .f32⟩ : BufTy).Contents (Elt F)),
    unary main_v22 main_v23 (broadcastInDim S100000x128 ![0, 1] bcast_S1x128_S100000x128_0_1 : (⟨S1x128, .f32⟩ : BufTy).Contents (Elt F) → (⟨S100000x128, .f32⟩ : BufTy).Contents (Elt F)),
    binary main_v21 main_v23 main_v24 (addf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    unary main_cst_2 main_v25 (broadcastInDim S100000x128 ![] bcast_S_S100000x128 : (⟨S_, .f32⟩ : BufTy).Contents (Elt F) → (⟨S100000x128, .f32⟩ : BufTy).Contents (Elt F)),
    binary main_v24 main_v25 main_v26 (maximumf : (⟨S100000x128, .f32⟩ : BufTy).Contents (Elt F) → (⟨S100000x128, .f32⟩ : BufTy).Contents (Elt F) → (⟨S100000x128, .f32⟩ : BufTy).Contents (Elt F)) ]

/-- The next twenty-eight: the column means, and the variance with its guarded choice. -/
private abbrev ops2 : List (HloOp τ sig (Elt F)) :=
  [ nullary main_cst_3 (constant S_ .f32 0x00000000#32),
    binary main_v26 main_cst_3 main_v27 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_4 (constant S_ .f32 0x47C35000#32),
    unary main_cst_4 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    nullary main_c_5 (constantI S_ 32 0#32),
    TRef.nullary main_call0.cst (constant S_ .f32 0x00000000#32),
    TRef.binary (.of main_v26 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v26 : TRef sig ⟨S100000x128, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b) ]

/-- The last sixteen: the normalisation. -/
private abbrev ops3 : List (HloOp τ sig (Elt F)) :=
  [ unary main_v29 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v26 main_v32 main_v33 (subf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x3727C5AC#32),
    unary main_cst_6 main_v34 (broadcastInDim S128 ![] bcast_S_S128 : (⟨S_, .f32⟩ : BufTy).Contents (Elt F) → (⟨S128, .f32⟩ : BufTy).Contents (Elt F)),
    binary main_v30 main_v34 main_v35 (addf : (⟨S128, .f32⟩ : BufTy).Contents (Elt F) → (⟨S128, .f32⟩ : BufTy).Contents (Elt F) → (⟨S128, .f32⟩ : BufTy).Contents (Elt F)),
    unary main_v35 main_v36 (Host.rsqrt : (⟨S128, .f32⟩ : BufTy).Contents (Elt F) → (⟨S128, .f32⟩ : BufTy).Contents (Elt F)),
    unary main_v36 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v33 main_v38 main_v39 (mulf : (⟨S100000x128, .f32⟩ : BufTy).Contents (Elt F) → (⟨S100000x128, .f32⟩ : BufTy).Contents (Elt F) → (⟨S100000x128, .f32⟩ : BufTy).Contents (Elt F)),
    unary main_arg6 main_v40 (broadcastInDim S1x128 ![1] bcast_S128_S1x128_1 : (⟨S128, .f32⟩ : BufTy).Contents (Elt F) → (⟨S1x128, .f32⟩ : BufTy).Contents (Elt F)),
    unary main_v40 main_v41 (broadcastInDim S100000x128 ![0, 1] bcast_S1x128_S100000x128_0_1 : (⟨S1x128, .f32⟩ : BufTy).Contents (Elt F) → (⟨S100000x128, .f32⟩ : BufTy).Contents (Elt F)),
    binary main_v39 main_v41 main_v42 (mulf : (⟨S100000x128, .f32⟩ : BufTy).Contents (Elt F) → (⟨S100000x128, .f32⟩ : BufTy).Contents (Elt F) → (⟨S100000x128, .f32⟩ : BufTy).Contents (Elt F)),
    unary main_arg7 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v42 main_v44 main_v45 (addf : (⟨S100000x128, .f32⟩ : BufTy).Contents (Elt F) → (⟨S100000x128, .f32⟩ : BufTy).Contents (Elt F) → (⟨S100000x128, .f32⟩ : BufTy).Contents (Elt F)) ]

private theorem ops_eq : (ops : List (HloOp τ sig (Elt F))) = ops1 ++ (ops2 ++ ops3) := rfl

/-- The fold over two stretches in a row is the second's fold over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Stretches

/-! ## The stages of the reference's result, as arrays -/

/-- A vector laid along every one of the 100000 rows. -/
private def rows (v : FVec Ideal S128 .f32) : FVec Ideal S100000x128 .f32 :=
  broadcastInDim S100000x128 ![0, 1] bcast_S1x128_S100000x128_0_1 (broadcastInDim S1x128 ![1] bcast_S128_S1x128_1 v)

/-- The all-zero array. -/
private def zeroN : FVec Ideal S100000x128 .f32 :=
  broadcastInDim S100000x128 ![] bcast_S_S100000x128 (constant S_ .f32 0x00000000#32)

/-- One affine map followed by the maximum with zero. -/
private def layer (x : FVec Ideal S100000x128 .f32) (W : FVec Ideal S128x128 .f32) (b : FVec Ideal S128 .f32) :
    FVec Ideal S100000x128 .f32 :=
  maximumf (addf (Host.dotGeneral dot_S100000x128_S128x128_S100000x128_1_0_0_1_n_n none x W) (rows b)) zeroN

/-- The column sums of an array, from zero. -/
private def colSumT (H : FVec Ideal S100000x128 .f32) : FVec Ideal S128 .f32 :=
  Host.reduceAdd H (constant S_ .f32 0x00000000#32) reducesTo_S100000x128_S128_d0 h_S_

/-- The column means. -/
private def meanT (H : FVec Ideal S100000x128 .f32) : FVec Ideal S128 .f32 :=
  Host.divf (colSumT H) (broadcastInDim S128 ![] bcast_S_S128 (constant S_ .f32 0x47C35000#32))

/-- The number of rows less the correction, which is the integer zero converted. -/
private def cntT : FVec Ideal S_ .f32 :=
  subf (constant S_ .f32 0x47C35000#32) (sitofp .f32 (constantI S_ 32 0#32))

/-- The deviations from the column means (the means taken once more, as a one-row matrix). -/
private def devT (H : FVec Ideal S100000x128 .f32) : FVec Ideal S100000x128 .f32 :=
  subf H (broadcastInDim S100000x128 ![0, 1] bcast_S1x128_S100000x128_0_1
    (Host.divf (broadcastInDim S1x128 ![1] bcast_S128_S1x128_1 (colSumT H))
      (broadcastInDim S1x128 ![] bcast_S_S1x128 (constant S_ .f32 0x47C35000#32))))

/-- The column variances: the column sums of the squared deviations over the count, chosen over a never-taken
    alternative by the test that the count is positive. -/
private def varT (H : FVec Ideal S100000x128 .f32) : FVec Ideal S128 .f32 :=
  select (broadcastInDim S128 ![] bcast_S_S128 (cmpf .ogt cntT (constant S_ .f32 0x00000000#32)))
    (Host.divf (colSumT (mulf (devT H) (devT H))) (broadcastInDim S128 ![] bcast_S_S128 cntT))
    (broadcastInDim S128 ![] bcast_S_S128 (constant S_ .f32 0x7FC00000#32))

/-- The normalisation given the column means and variances. -/
private def normT (H : FVec Ideal S100000x128 .f32) (mu var G Bt : FVec Ideal S128 .f32) : FVec Ideal S100000x128 .f32 :=
  addf (mulf (mulf (subf H (rows mu))
      (rows (Host.rsqrt (addf var (broadcastInDim S128 ![] bcast_S_S128 (constant S_ .f32 0x3727C5AC#32))))))
    (rows G)) (rows Bt)

/-- The normalised array: the normalisation at the array's own column means and variances. -/
private def outT (H : FVec Ideal S100000x128 .f32) (G Bt : FVec Ideal S128 .f32) : FVec Ideal S100000x128 .f32 :=
  normT H (meanT H) (varT H) G Bt

/-! ## The stages read at an index -/

private theorem rows_apply (v : FVec Ideal S128 .f32) (r : Fin 100000) (j : Fin 128) : rows v (ix2 r j) = v (ix1 j) := by
  unfold rows
  rw [broadcastInDim_oneRow_apply]
  exact broadcastInDim_apply ![1] bcast_S128_S1x128_1 v (ix2 (0 : Fin 1) j) (ix1 j) (by
    intro a; match a with | ⟨0, _⟩ => rfl)

private theorem zeroN_apply (i : S100000x128.Idx) : zeroN i = 0 := by
  unfold zeroN
  rw [broadcastInDim_scalar_apply, constant_apply, Ideal.ofBits_zero_f32]

/-- The matrix product at (r, j): the sum over the contracted coordinate. -/
private theorem dot_apply (x : FVec Ideal S100000x128 .f32) (W : FVec Ideal S128x128 .f32) (r : Fin 100000) (j : Fin 128) :
    Host.dotGeneral dot_S100000x128_S128x128_S100000x128_1_0_0_1_n_n none x W (ix2 r j) = ∑ k : Fin 128, x (ix2 r k) * W (ix2 k j) := by
  show FloatOps.dotGeneral _ none _ x W (ix2 r j) = _
  rw [Ideal.dotGeneral_apply, ← Equiv.sum_comp (contrEquiv1 dot_S100000x128_S128x128_S100000x128_1_0_0_1_n_n 128 rfl rfl).symm]
  refine Finset.sum_congr rfl fun c _ => ?_
  have c2 := contrEquiv1_symm_val dot_S100000x128_S128x128_S100000x128_1_0_0_1_n_n 128 rfl rfl c
  have l2 : (dot_S100000x128_S128x128_S100000x128_1_0_0_1_n_n).lhsIdx (ix2 r j) ((contrEquiv1 _ 128 rfl rfl).symm c) = ix2 r c := by
    funext ax; apply Fin.ext
    match ax with
    | ⟨0, _⟩ => simp [DotDims.lhsIdx, dot_S100000x128_S128x128_S100000x128_1_0_0_1_n_n]; rfl
    | ⟨1, _⟩ => simp [DotDims.lhsIdx, dot_S100000x128_S128x128_S100000x128_1_0_0_1_n_n]; exact c2
  have r2 : (dot_S100000x128_S128x128_S100000x128_1_0_0_1_n_n).rhsIdx (ix2 r j) ((contrEquiv1 _ 128 rfl rfl).symm c) = ix2 c j := by
    funext ax; apply Fin.ext
    match ax with
    | ⟨0, _⟩ => simp [DotDims.rhsIdx, dot_S100000x128_S128x128_S100000x128_1_0_0_1_n_n]; exact c2
    | ⟨1, _⟩ => simp [DotDims.rhsIdx, dot_S100000x128_S128x128_S100000x128_1_0_0_1_n_n]; rfl
  rw [l2, r2]

private theorem layer_apply (x : FVec Ideal S100000x128 .f32) (W : FVec Ideal S128x128 .f32) (b : FVec Ideal S128 .f32)
    (r : Fin 100000) (j : Fin 128) :
    layer x W b (ix2 r j) = max ((∑ k : Fin 128, x (ix2 r k) * W (ix2 k j)) + b (ix1 j)) 0 := by
  unfold layer
  rw [maximumf_apply, addf_apply, dot_apply, rows_apply, zeroN_apply]

/-- A column sum from zero at column j: the sum down the rows. -/
private theorem colSumT_apply (H : FVec Ideal S100000x128 .f32) (j : Fin 128) :
    colSumT H (ix1 j) = ∑ r : Fin 100000, H (ix2 r j) := by
  unfold colSumT
  rw [hostReduceAdd_apply, Ideal.hostReduceAdd_single reducesTo_S100000x128_S128_d0 (by decide : S100000x128.Reduces [0] S128),
    constant_apply, Ideal.ofBits_zero_f32, zero_add]
  refine Finset.sum_congr rfl fun r _ => congrArg H ?_
  funext a
  match a with
  | ⟨0, _⟩ => exact Fin.ext rfl
  | ⟨1, _⟩ => exact Fin.ext rfl

/-- A vector as a one-row matrix, read in that row. -/
private theorem row1_apply (v : FVec Ideal S128 .f32) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j) (by
    intro a; match a with | ⟨0, _⟩ => rfl)

/-- The reciprocal square root on the host, at an index. -/
private theorem hostRsqrt_apply {s : Shape} {φ : FTy} (x : FVec Ideal s φ) (i : s.Idx) : Host.rsqrt x i = Ideal.rsqrt (x i) := rfl

/-- The integer zero converted is zero, so the corrected count is the count. -/
private theorem cntT_apply : cntT ix0 = Spec.cnt := by
  show Ideal.ofBits .f32 0x47C35000#32 - ((((0#32 : BitVec 32).toInt : ℤ) : ℝ) : EReal) = Spec.cnt
  have h0 : ((((0#32 : BitVec 32).toInt : ℤ) : ℝ) : EReal) = 0 := by simp
  rw [h0, sub_zero]; rfl

/-- The count is positive, so the guard holds in every column. -/
private theorem guard_apply (i : S128.Idx) :
    broadcastInDim S128 ![] bcast_S_S128 (cmpf .ogt cntT (constant S_ .f32 0x00000000#32)) i = 1#1 := by
  rw [broadcastInDim_scalar_apply, cmpf_apply, constant_apply, cntT_apply, Ideal.ofBits_zero_f32, Spec.cnt_eq]
  show Ideal.cmp .ogt _ _ = _
  unfold Ideal.cmp
  have h : (0 : EReal) < ((100000 : ℝ) : EReal) := by exact_mod_cast (by norm_num : (0 : ℝ) < 100000)
  simp [h]

/-- The normalisation at (r, j). -/
private theorem normT_apply (H : FVec Ideal S100000x128 .f32) (mu var G Bt : FVec Ideal S128 .f32) (r : Fin 100000) (j : Fin 128) :
    normT H mu var G Bt (ix2 r j)
      = ((H (ix2 r j) - mu (ix1 j)) * Ideal.rsqrt (var (ix1 j) + Spec.eps)) * G (ix1 j) + Bt (ix1 j) := by
  unfold normT
  rw [addf_apply, mulf_apply, mulf_apply, subf_apply, rows_apply, rows_apply, rows_apply, rows_apply,
    hostRsqrt_apply, addf_apply, broadcastInDim_scalar_apply, constant_apply]
  rfl

section Columns
variable (H : FVec Ideal S100000x128 .f32) (h : Fin 100000 → Fin 128 → EReal) (hH : ∀ r j, H (ix2 r j) = h r j)
include hH

private theorem meanT_apply (j : Fin 128) : meanT H (ix1 j) = Spec.mean h j := by
  unfold meanT Spec.mean Spec.colSum Spec.cnt
  rw [hostDivf_apply, colSumT_apply, broadcastInDim_scalar_apply, constant_apply]
  simp only [hH]

private theorem devT_apply (r : Fin 100000) (j : Fin 128) : devT H (ix2 r j) = h r j - Spec.mean h j := by
  unfold devT Spec.mean Spec.colSum Spec.cnt
  rw [subf_apply, broadcastInDim_oneRow_apply, hostDivf_apply, row1_apply, colSumT_apply, broadcastInDim_scalar_apply,
    constant_apply, hH]
  simp only [hH]

private theorem varT_apply (j : Fin 128) : varT H (ix1 j) = Spec.varR h j := by
  unfold varT Spec.varR
  rw [select_apply, guard_apply, select_one, hostDivf_apply, colSumT_apply, broadcastInDim_scalar_apply, cntT_apply]
  simp only [mulf_apply, devT_apply H h hH]

private theorem outT_apply (G Bt : FVec Ideal S128 .f32) (r : Fin 100000) (j : Fin 128) :
    outT H G Bt (ix2 r j)
      = ((h r j - Spec.mean h j) * Ideal.rsqrt (Spec.varR h j + Spec.eps)) * G (ix1 j) + Bt (ix1 j) := by
  unfold outT
  rw [normT_apply, meanT_apply H h hH, varT_apply H h hH, hH]

end Columns

/-- Two layers are the hidden features. -/
private theorem hid_apply (x : FVec Ideal S100000x128 .f32) (W1 : FVec Ideal S128x128 .f32) (b1 : FVec Ideal S128 .f32)
    (W2 : FVec Ideal S128x128 .f32) (b2 : FVec Ideal S128 .f32) (r : Fin 100000) (j : Fin 128) :
    layer (layer x W1 b1) W2 b2 (ix2 r j) = Spec.hid x W1 b1 W2 b2 r j := by
  unfold Spec.hid
  rw [layer_apply]
  simp only [layer_apply]

/-- The stages composed are the normalised hidden features, the variance as the mean of the squared deviations. -/
private theorem outT_eq (x : FVec Ideal S100000x128 .f32) (W1 : FVec Ideal S128x128 .f32) (b1 : FVec Ideal S128 .f32)
    (W2 : FVec Ideal S128x128 .f32) (b2 : FVec Ideal S128 .f32) (G Bt : FVec Ideal S128 .f32) :
    outT (layer (layer x W1 b1) W2 b2) G Bt = Spec.outR (Spec.hid x W1 b1 W2 b2) G Bt := by
  funext i
  obtain ⟨r, j, rfl⟩ : ∃ (r : Fin 100000) (j : Fin 128), i = ix2 r j := ⟨i 0, i 1, eq_ix2 i⟩
  rw [Spec.outR_apply, outT_apply _ (Spec.hid x W1 b1 W2 b2) (hid_apply x W1 b1 W2 b2)]

/-! ## The run read stretch by stretch -/

section Read
variable (V : Valuation τ sig (Elt Ideal))

attribute [local irreducible] Host.gather Host.scatterAdd Host.reduceAdd in
set_option maxRecDepth 4096 in
private theorem ops1_v26 :
    after (ops1 (F := Ideal)) V (main_v26 : DevRef τ sig)
      = layer (layer (addf (V (main_arg0 : DevRef τ sig)) (agg (V (main_arg0 : DevRef τ sig)) (V (main_arg1 : DevRef τ sig))))
          (V (main_arg2 : DevRef τ sig)) (V (main_arg3 : DevRef τ sig))) (V (main_arg4 : DevRef τ sig)) (V (main_arg5 : DevRef τ sig)) := by
  after_results_simp <;> rfl

private theorem ops1_arg6 : after (ops1 (F := Ideal)) V (main_arg6 : DevRef τ sig) = V (main_arg6 : DevRef τ sig) := by
  after_results_simp
private theorem ops1_arg7 : after (ops1 (F := Ideal)) V (main_arg7 : DevRef τ sig) = V (main_arg7 : DevRef τ sig) := by
  after_results_simp

attribute [local irreducible] Host.reduceAdd in
private theorem ops2_v29 : after (ops2 (F := Ideal)) V (main_v29 : DevRef τ sig) = meanT (V (main_v26 : DevRef τ sig)) := by
  after_results_simp <;> rfl

attribute [local irreducible] Host.reduceAdd in
private theorem ops2_v30 : after (ops2 (F := Ideal)) V (main_v30 : DevRef τ sig) = varT (V (main_v26 : DevRef τ sig)) := by
  after_results_simp <;> (try simp only [TRef.ofBuf, TRef.toBuf, cast_eq]) <;> rfl

private theorem ops2_v26 : after (ops2 (F := Ideal)) V (main_v26 : DevRef τ sig) = V (main_v26 : DevRef τ sig) := by
  after_results_simp
private theorem ops2_arg6 : after (ops2 (F := Ideal)) V (main_arg6 : DevRef τ sig) = V (main_arg6 : DevRef τ sig) := by
  after_results_simp
private theorem ops2_arg7 : after (ops2 (F := Ideal)) V (main_arg7 : DevRef τ sig) = V (main_arg7 : DevRef τ sig) := by
  after_results_simp

private theorem ops3_v45 :
    after (ops3 (F := Ideal)) V (main_v45 : DevRef τ sig)
      = normT (V (main_v26 : DevRef τ sig)) (V (main_v29 : DevRef τ sig)) (V (main_v30 : DevRef τ sig))
          (V (main_arg6 : DevRef τ sig)) (V (main_arg7 : DevRef τ sig)) := by
  after_results_simp <;> rfl

/-- The fold at the result buffer: the stages composed, over the launch contents of the eight arguments. -/
private theorem out_eq :
    after (ops (F := Ideal)) V (main_v45 : DevRef τ sig)
      = outT (layer (layer (addf (V (main_arg0 : DevRef τ sig)) (agg (V (main_arg0 : DevRef τ sig)) (V (main_arg1 : DevRef τ sig))))
          (V (main_arg2 : DevRef τ sig)) (V (main_arg3 : DevRef τ sig))) (V (main_arg4 : DevRef τ sig)) (V (main_arg5 : DevRef τ sig)))
          (V (main_arg6 : DevRef τ sig)) (V (main_arg7 : DevRef τ sig)) := by
  rw [ops_eq, after_app, after_app, ops3_v45, ops2_v26, ops2_v29, ops2_v30, ops2_arg6, ops2_arg7, ops1_v26, ops1_arg6, ops1_arg7]
  rfl

end Read

/-! ## The arguments keep their contents -/

section Args
variable (V : Valuation τ sig (Elt Ideal))
private theorem arg0_eq : after (ops (F := Ideal)) V (main_arg0 : DevRef τ sig) = V (main_arg0 : DevRef τ sig) := by
  after_results_simp
private theorem arg1_eq : after (ops (F := Ideal)) V (main_arg1 : DevRef τ sig) = V (main_arg1 : DevRef τ sig) := by
  after_results_simp
private theorem arg2_eq : after (ops (F := Ideal)) V (main_arg2 : DevRef τ sig) = V (main_arg2 : DevRef τ sig) := by
  after_results_simp
private theorem arg3_eq : after (ops (F := Ideal)) V (main_arg3 : DevRef τ sig) = V (main_arg3 : DevRef τ sig) := by
  after_results_simp
private theorem arg4_eq : after (ops (F := Ideal)) V (main_arg4 : DevRef τ sig) = V (main_arg4 : DevRef τ sig) := by
  after_results_simp
private theorem arg5_eq : after (ops (F := Ideal)) V (main_arg5 : DevRef τ sig) = V (main_arg5 : DevRef τ sig) := by
  after_results_simp
private theorem arg6_eq : after (ops (F := Ideal)) V (main_arg6 : DevRef τ sig) = V (main_arg6 : DevRef τ sig) := by
  after_results_simp
private theorem arg7_eq : after (ops (F := Ideal)) V (main_arg7 : DevRef τ sig) = V (main_arg7 : DevRef τ sig) := by
  after_results_simp
end Args

variable (m : (ℓ : Loc nD τ sig) → Buf (Elt Ideal) ℓ) (ρ : Dev nD → PrngReg)

/-- Every weakly fair execution of the reference terminates, nothing faulting, with the result array at the
    normalised hidden features and the argument arrays as launched. -/
theorem run : θ_run (defs (F := Ideal)) (onTc (τ := τ) (main (F := Ideal))) ⟨m, fun _ => 0, ρ⟩ (fun r => ∀ c : Dev nD,
      r.2.mem ((c.tc : Thread nD τ).loc main_v45) = Cert.Spec.outR (hidR m c) (aG m c) (aBt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨(h c main_v45).trans ((out_eq _).trans (outT_eq _ _ _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _)⟩)
    (run_main m ρ)

end Cert.ReferenceIdeal.Val

end
-- ==== Proof.lean ====
/-
  The claim: a graph layer (a node's features plus the sum of its in-neighbours', two affine maps each followed by
  max(·, 0), then a column-wise normalisation by the batch's mean and variance) computed by two kernels with host
  operations around them, against the same layer written in plain array operations.

  Both programs aggregate the neighbours with the same host operations, so that part is one function of the
  features and the edge list on both sides and is never opened beyond showing it keeps real entries real. The first
  kernel computes the hidden features block by block (a matrix product into a zero accumulator is the plain sum
  over the contracted index; the 16-bit casts are the identity on extended reals) and accumulates the column sums
  and column sums of squares over its fifty grid points; the host turns them into the mean and
  1/sqrt(E[h²] − mean² + ε); the second kernel normalises block by block. The reference takes the variance as the
  mean of the squared deviations. The two variances agree on real numbers, and under the precondition every hidden
  feature is a real number (finite inputs, finite sums and products, max with 0), so the results agree entry by
  entry. The kernel program's frames are the generated ones; the reference's frame is its run with the result
  dropped; the ideal pass rewrote nothing, so that conjunct is trivial.
-/
import proofs.«176753_j82042465288993_1_alg».proof.Defs
import proofs.«176753_j82042465288993_1_alg».proof.Proof.Gen.Kernel
import proofs.«176753_j82042465288993_1_alg».proof.Proof.Gen.Kernel.Frame
import proofs.«176753_j82042465288993_1_alg».proof.Proof.Gen.KernelIdeal
import proofs.«176753_j82042465288993_1_alg».proof.Proof.Gen.KernelIdeal.Frame
import proofs.«176753_j82042465288993_1_alg».proof.Proof.Gen.ReferenceIdeal
import proofs.«176753_j82042465288993_1_alg».proof.Proof.Gen.Pre_finite_inputs
import proofs.«176753_j82042465288993_1_alg».proof.Proof.Spec
import proofs.«176753_j82042465288993_1_alg».proof.Proof.Finite
import proofs.«176753_j82042465288993_1_alg».proof.Proof.KValue
import proofs.«176753_j82042465288993_1_alg».proof.Proof.KAgg
import proofs.«176753_j82042465288993_1_alg».proof.Proof.RValue
import Idealize.ShloMosaic.Adequacy
import Idealize.ShloMosaic.Init

noncomputable section

namespace Cert.Proof

open Idealize.ShloMosaic Idealize.ShloMosaic.TcCoe Idealize.SL.Sem

/-- The aggregated neighbour features are one function of the features and the edge list in both programs: the
    same host operations at the same dimension numbers. -/
theorem agg_eq (x : FVec Ideal Cert.KernelIdeal.S100000x128 .f32) (ei : IVec Cert.KernelIdeal.S2x1600000 32) :
    Cert.ReferenceIdeal.Val.agg x ei = Cert.KernelIdeal.Val.agg x ei := by
  unfold Cert.ReferenceIdeal.Val.agg Cert.KernelIdeal.Val.agg
  rfl

/-- The hidden features are one function of the six arrays they are computed from, in both programs. -/
theorem hid_congr (x' x : FVec Ideal Cert.KernelIdeal.S100000x128 .f32) (ei' ei : IVec Cert.KernelIdeal.S2x1600000 32)
    (W1' W1 : FVec Ideal Cert.KernelIdeal.S128x128 .f32) (b1' b1 : FVec Ideal Cert.KernelIdeal.S128 .f32)
    (W2' W2 : FVec Ideal Cert.KernelIdeal.S128x128 .f32) (b2' b2 : FVec Ideal Cert.KernelIdeal.S128 .f32)
    (h0 : x' = x) (h1 : ei' = ei) (h2 : W1' = W1) (h3 : b1' = b1) (h4 : W2' = W2) (h5 : b2' = b2) :
    Cert.Spec.hid (addf x' (Cert.ReferenceIdeal.Val.agg x' ei')) W1' b1' W2' b2'
      = Cert.Spec.hid (addf x (Cert.KernelIdeal.Val.agg x ei)) W1 b1 W2 b2 := by
  subst h0 h1 h2 h3 h4 h5
  rw [agg_eq]

/-- The normalisation is one function of the hidden features, the scale and the shift. -/
theorem outR_congr (h' h : Fin 100000 → Fin 128 → EReal) (g' g bt' bt : Cert.Spec.SV.Idx → EReal)
    (e : h' = h) (eg : g' = g) (eb : bt' = bt) : Cert.Spec.outR h' g' bt' = Cert.Spec.outR h g bt := by
  subst e eg eb; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Val.run m ρ)

theorem algebraic : Cert.algebraic_KernelIdeal_ReferenceIdeal := by
  intro m ρ m' ρ' hpre hagree
  refine ⟨fun c => Cert.Spec.outK (Cert.KernelIdeal.Val.hidK m c) (Cert.KernelIdeal.Val.aG m c) (Cert.KernelIdeal.Val.aBt m c),
    Cert.KernelIdeal.Val.run m ρ, ?_⟩
  refine (θ_run Cert.ReferenceIdeal.defs _ _).mono (fun _ h c => ⟨(h c).1.trans ?_, (h c).2⟩) (Cert.ReferenceIdeal.Val.run m' ρ')
  obtain ⟨e0, e1, e2, e3, e4, e5, e6, e7⟩ := hagree c
  obtain ⟨hx, hW1, hb1, hW2, hb2⟩ := Cert.Proof.Finite.real_of_pre _ _ _ _ _ _ _ _ (hpre c)
  -- every hidden feature is a real number: real inputs, real aggregated features, finite sums and products, max with 0
  have hxa : Cert.Spec.AllReal (s := Cert.KernelIdeal.S100000x128) (Cert.KernelIdeal.Val.xa m c) := fun i =>
    Cert.Spec.add_real (hx i) (Cert.KernelIdeal.Val.agg_real _ _ hx i)
  have hh : ∀ r j, ∃ q : ℝ, Cert.KernelIdeal.Val.hidK m c r j = (q : EReal) := fun r j =>
    Cert.Spec.hid_real hxa hW1 hb1 hW2 hb2 r j
  show _ = Cert.Spec.outK (Cert.KernelIdeal.Val.hidK m c) (Cert.KernelIdeal.Val.aG m c) (Cert.KernelIdeal.Val.aBt m c)
  rw [Cert.Spec.outK_eq_outR _ _ _ hh]
  -- the reference's arguments are the kernel program's, and the aggregation is the same function of them
  have hhid : Cert.ReferenceIdeal.Val.hidR m' c = Cert.KernelIdeal.Val.hidK m c :=
    hid_congr _ _ _ _ _ _ _ _ _ _ _ _ e0 e1 e2 e3 e4 e5
  exact outR_congr _ _ _ _ _ _ hhid e6 e7

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
